-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x3 : Shape := ⟨2, ![200000, 3]⟩
abbrev S2x6400000 : Shape := ⟨2, ![2, 6400000]⟩
abbrev S3x16 : Shape := ⟨2, ![3, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S200000x3 : S_.BroadcastsInDim S200000x3 (![] : Fin 0 → Fin S200000x3.rank)
  reducesTo_S200000x3_S_d0_1 : S200000x3.ReducesTo [0, 1] S_
  h_S_ : 0 < S_.numel
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S200000x3 .f32) (main_arg1 : IVec S2x6400000 32) (main_arg2 : FVec F S3x16 .f32) (main_arg3 : FVec F S16 .f32) (main_arg4 : FVec F S16x1 .f32) (main_arg5 : FVec F S1 .f32) : IVec S_ 1 :=
  let main_v0 : FVec F S200000x3 .f32 := Host.absf main_arg0
  let main_cst : FVec F S_ .f32 := constant S_ .f32 0x7F800000#32
  let main_v1 : FVec F S200000x3 .f32 := broadcastInDim S200000x3 ![] bcast_S_S200000x3 main_cst
  let main_v2 : IVec S200000x3 1 := cmpf .olt main_v0 main_v1
  let main_c : IVec S_ 1 := constantI S_ 1 1#1
  let main_v3 : IVec S_ 1 := (fun x v => Host.reduce IntOp.andi x v reducesTo_S200000x3_S_d0_1 h_S_) main_v2 main_c
  let main_v4 : FVec F S3x16 .f32 := Host.absf main_arg2
  let main_cst_0 : FVec F S_ .f32 := constant S_ .f32 0x7F800000#32
  let main_v5 : FVec F S3x16 .f32 := broadcastInDim S3x16 ![] bcast_S_S3x16 main_cst_0
  let main_v6 : IVec S3x16 1 := cmpf .olt main_v4 main_v5
  let main_c_1 : IVec S_ 1 := constantI S_ 1 1#1
  let main_v7 : IVec S_ 1 := (fun x v => Host.reduce IntOp.andi x v reducesTo_S3x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg4
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg5 main_v13 main_v16
-- ==== Kernel.lean ====
abbrev S200000x3 : Shape := ⟨2, ![200000, 3]⟩
abbrev S2x6400000 : Shape := ⟨2, ![2, 6400000]⟩
abbrev S3x16 : Shape := ⟨2, ![3, 16]⟩
abbrev S16 : Shape := ⟨1, ![16]⟩
abbrev S16x1 : Shape := ⟨2, ![16, 1]⟩
abbrev S1 : Shape := ⟨1, ![1]⟩
abbrev S1x6400000 : Shape := ⟨2, ![1, 6400000]⟩
abbrev S6400000 : Shape := ⟨1, ![6400000]⟩
abbrev S200000 : Shape := ⟨1, ![200000]⟩
abbrev S6600000 : Shape := ⟨1, ![6600000]⟩
abbrev S_ : Shape := ⟨0, ![]⟩
abbrev S6600000x1 : Shape := ⟨2, ![6600000, 1]⟩
abbrev S200000x16 : Shape := ⟨2, ![200000, 16]⟩
abbrev S10000x3 : Shape := ⟨2, ![10000, 3]⟩
abbrev S10000x16 : Shape := ⟨2, ![10000, 16]⟩
abbrev S6600000x16 : Shape := ⟨2, ![6600000, 16]⟩
abbrev S1x16 : Shape := ⟨2, ![1, 16]⟩
abbrev S200000x1 : Shape := ⟨2, ![200000, 1]⟩
abbrev S10000x1 : Shape := ⟨2, ![10000, 1]⟩
abbrev S1x1 : Shape := ⟨2, ![1, 1]⟩

abbrev nBuf : Space → Nat
  | .hbm => 83
  | .vmem => 20
  | .smem => 0
  | _ => 0

abbrev bufTy : (tb : Table) → Fin (tcTables nBuf tb) → BufTy
  | .hbm, ⟨0, _⟩ => ⟨S200000x3, .f32⟩
  | .hbm, ⟨1, _⟩ => ⟨S2x6400000, .i32⟩
  | .hbm, ⟨2, _⟩ => ⟨S3x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S200000, .i32⟩
  | .hbm, ⟨11, _⟩ => ⟨S6600000, .i32⟩
  | .hbm, ⟨12, _⟩ => ⟨S6600000, .i32⟩
  | .hbm, ⟨13, _⟩ => ⟨S_, .f32⟩
  | .hbm, ⟨14, _⟩ => ⟨S6600000, .f32⟩
  | .hbm, ⟨15, _⟩ => ⟨S_, .f32⟩
  | .hbm, ⟨16, _⟩ => ⟨S200000, .f32⟩
  | .hbm, ⟨17, _⟩ => ⟨S6600000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S200000, .f32⟩
  | .hbm, ⟨23, _⟩ => ⟨S_, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S_, .i32⟩
  | .hbm, ⟨28, _⟩ => ⟨S6600000, .i32⟩
  | .hbm, ⟨29, _⟩ => ⟨S6600000, .i1⟩
  | .hbm, ⟨30, _⟩ => ⟨S_, .i32⟩
  | .hbm, ⟨31, _⟩ => ⟨S6600000, .i32⟩
  | .hbm, ⟨32, _⟩ => ⟨S6600000, .i32⟩
  | .hbm, ⟨33, _⟩ => ⟨S6600000, .i32⟩
  | .hbm, ⟨34, _⟩ => ⟨S6600000x1, .i32⟩
  | .hbm, ⟨35, _⟩ => ⟨S6600000, .f32⟩
  | .hbm, ⟨36, _⟩ => ⟨S_, .i32⟩
  | .hbm, ⟨37, _⟩ => ⟨S6600000, .i32⟩
  | .hbm, ⟨38, _⟩ => ⟨S6600000, .i1⟩
  | .hbm, ⟨39, _⟩ => ⟨S_, .i32⟩
  | .hbm, ⟨40, _⟩ => ⟨S6600000, .i32⟩
  | .hbm, ⟨41, _⟩ => ⟨S6600000, .i32⟩
  | .hbm, ⟨42, _⟩ => ⟨S6600000, .i32⟩
  | .hbm, ⟨43, _⟩ => ⟨S6600000x1, .i32⟩
  | .hbm, ⟨44, _⟩ => ⟨S6600000, .f32⟩
  | .hbm, ⟨45, _⟩ => ⟨S6600000, .f32⟩
  | .hbm, ⟨46, _⟩ => ⟨S200000x16, .f32⟩
  | .hbm, ⟨47, _⟩ => ⟨S_, .i32⟩
  | .hbm, ⟨48, _⟩ => ⟨S6600000, .i32⟩
  | .hbm, ⟨49, _⟩ => ⟨S6600000, .i1⟩
  | .hbm, ⟨50, _⟩ => ⟨S_, .i32⟩
  | .hbm, ⟨51, _⟩ => ⟨S6600000, .i32⟩
  | .hbm, ⟨52, _⟩ => ⟨S6600000, .i32⟩
  | .hbm, ⟨53, _⟩ => ⟨S6600000, .i32⟩
  | .hbm, ⟨54, _⟩ => ⟨S6600000x1, .i32⟩
  | .hbm, ⟨55, _⟩ => ⟨S6600000x16, .f32⟩
  | .hbm, ⟨56, _⟩ => ⟨S6600000x1, .f32⟩
  | .hbm, ⟨57, _⟩ => ⟨S6600000x16, .f32⟩
  | .hbm, ⟨58, _⟩ => ⟨S6600000x16, .f32⟩
  | .hbm, ⟨59, _⟩ => ⟨S_, .f32⟩
  | .hbm, ⟨60, _⟩ => ⟨S200000x16, .f32⟩
  | .hbm, ⟨61, _⟩ => ⟨S6600000x1, .i32⟩
  | .hbm, ⟨62, _⟩ => ⟨S200000x16, .f32⟩
  | .hbm, ⟨63, _⟩ => ⟨S1x16, .f32⟩
  | .hbm, ⟨64, _⟩ => ⟨S200000x16, .f32⟩
  | .hbm, ⟨65, _⟩ => ⟨S200000x1, .f32⟩
  | .hbm, ⟨66, _⟩ => ⟨S_, .i32⟩
  | .hbm, ⟨67, _⟩ => ⟨S6600000, .i32⟩
  | .hbm, ⟨68, _⟩ => ⟨S6600000, .i1⟩
  | .hbm, ⟨69, _⟩ => ⟨S_, .i32⟩
  | .hbm, ⟨70, _⟩ => ⟨S6600000, .i32⟩
  | .hbm, ⟨71, _⟩ => ⟨S6600000, .i32⟩
  | .hbm, ⟨72, _⟩ => ⟨S6600000, .i32⟩
  | .hbm, ⟨73, _⟩ => ⟨S6600000x1, .i32⟩
  | .hbm, ⟨74, _⟩ => ⟨S6600000x1, .f32⟩
  | .hbm, ⟨75, _⟩ => ⟨S6600000x1, .f32⟩
  | .hbm, ⟨76, _⟩ => ⟨S6600000x1, .f32⟩
  | .hbm, ⟨77, _⟩ => ⟨S_, .f32⟩
  | .hbm, ⟨78, _⟩ => ⟨S200000x1, .f32⟩
  | .hbm, ⟨79, _⟩ => ⟨S6600000x1, .i32⟩
  | .hbm, ⟨80, _⟩ => ⟨S200000x1, .f32⟩
  | .hbm, ⟨81, _⟩ => ⟨S1x1, .f32⟩
  | .hbm, ⟨82, _⟩ => ⟨S200000x1, .f32⟩
  | .local _ .vmem, ⟨0, _⟩ => ⟨S10000x3, .f32⟩
  | .local _ .vmem, ⟨1, _⟩ => ⟨S10000x3, .f32⟩
  | .local _ .vmem, ⟨2, _⟩ => ⟨S3x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x1, .f32⟩
  | .local _ .vmem, ⟨13, _⟩ => ⟨S10000x1, .f32⟩
  | .local _ .vmem, ⟨14, _⟩ => ⟨S10000x1, .f32⟩
  | .local _ .vmem, ⟨15, _⟩ => ⟨S10000x1, .f32⟩
  | .local _ .vmem, ⟨16, _⟩ => ⟨S10000x1, .f32⟩
  | .local _ .vmem, ⟨17, _⟩ => ⟨S1x1, .f32⟩
  | .local _ .vmem, ⟨18, _⟩ => ⟨S10000x1, .f32⟩
  | .local _ .vmem, ⟨19, _⟩ => ⟨S10000x1, .f32⟩
  | _, _ => ⟨S200000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  inb_S10000x3_S10000x3_0_0 : ∀ a, (![0, 0] : Fin 2 → Nat) a + S10000x3.size a ≤ S10000x3.size a
  h_S10000x3 : 0 < S10000x3.numel
  bitsLt_bf16_f32 : FTy.bits .bf16 < FTy.bits .f32
  inb_S3x16_S3x16_0_0 : ∀ a, (![0, 0] : Fin 2 → Nat) a + S3x16.size a ≤ S3x16.size a
  h_S3x16 : 0 < S3x16.numel
  inb_S10000x16_S10000x16_0_0 : ∀ a, (![0, 0] : Fin 2 → Nat) a + S10000x16.size a ≤ S10000x16.size a
  h_S10000x16 : 0 < S10000x16.numel
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x1_S16x1_0_0 : ∀ a, (![0, 0] : Fin 2 → Nat) a + S16x1.size a ≤ S16x1.size a
  h_S16x1 : 0 < S16x1.numel
  inb_S10000x1_S10000x1_0_0 : ∀ a, (![0, 0] : Fin 2 → Nat) a + S10000x1.size a ≤ S10000x1.size a
  h_S10000x1 : 0 < S10000x1.numel
  bcast_S_S200000x1 : S_.BroadcastsInDim S200000x1 (![] : Fin 0 → Fin S200000x1.rank)
  shapeCasts_S1_S1x1 : S1.ShapeCasts S1x1
  shapeCasts_S10000x1_S10000x1 : S10000x1.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S10000x3_S3x16_S10000x16_1_0_0_1_n_n_wf : DotDims.WF S10000x3 S3x16 S10000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S10000x16_S16x1_S10000x1_1_0_0_1_n_n_wf : DotDims.WF S10000x16 S16x1 S10000x1 [1] [0] [0] [1] [] []
  gather_S200000x1_S6600000x1_S6600000x1_1_0_n_n_0_1_11_wf : GatherDims.WF S200000x1 S6600000x1 S6600000x1 [1] [0] [] [0] [] 1 ![1, 1]
  scatter_S200000x1_S6600000x1_S6600000x1_1_0_0_1_wf : ScatterDims.WF S200000x1 S6600000x1 S6600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S200000x3.size a
  hwx0_0 : ∀ i : grid0.Coords, EltTy.bits .f32 = 32 ∨ (Rect.block (s := S200000x3) S10000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16.size a ≤ S3x16.size a
  hwx0_1 : ∀ i : grid0.Coords, EltTy.bits .f32 = 32 ∨ (Rect.block (s := S3x16) S3x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S200000x16.size a
  hwx0_2 : ∀ i : grid0.Coords, EltTy.bits .f32 = 32 ∨ (Rect.block (s := S200000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S200000x16.size a
  hwx1_0 : ∀ i : grid1.Coords, EltTy.bits .f32 = 32 ∨ (Rect.block (s := S200000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S200000x16.size a
  hwx1_2 : ∀ i : grid1.Coords, EltTy.bits .f32 = 32 ∨ (Rect.block (s := S200000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S200000x16.size a
  hwx2_0 : ∀ i : grid2.Coords, EltTy.bits .f32 = 32 ∨ (Rect.block (s := S200000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x1.size a ≤ S16x1.size a
  hwx2_1 : ∀ i : grid2.Coords, EltTy.bits .f32 = 32 ∨ (Rect.block (s := S16x1) S16x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S200000x1.size a
  hwx2_2 : ∀ i : grid2.Coords, EltTy.bits .f32 = 32 ∨ (Rect.block (s := S200000x1) S10000x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x1.size a ≤ S200000x1.size a
  hwx3_0 : ∀ i : grid3.Coords, EltTy.bits .f32 = 32 ∨ (Rect.block (s := S200000x1) S10000x1.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1.size a ≤ S1x1.size a
  hwx3_1 : ∀ i : grid3.Coords, EltTy.bits .f32 = 32 ∨ (Rect.block (s := S1x1) S1x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S200000x1.size a
  hwx3_2 : ∀ i : grid3.Coords, EltTy.bits .f32 = 32 ∨ (Rect.block (s := S200000x1) S10000x1.size (cc3_transform_2 i) (hinb3_2 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S10000x3_S3x16_S10000x16_1_0_0_1_n_n : DotDims S10000x3 S3x16 S10000x16 where
  lhsContracting := [1]
  rhsContracting := [0]
  lhsNonContracting := [0]
  rhsNonContracting := [1]
  lhsBatch := []
  rhsBatch := []
  wf := dot_S10000x3_S3x16_S10000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf
def gather_S200000x1_S6600000x1_S6600000x1_1_0_n_n_0_1_11 : GatherDims S200000x1 S6600000x1 S6600000x1 where
  offsetDims := [1]
  collapsedSliceDims := [0]
  operandBatchingDims := []
  startIndicesBatchingDims := []
  startIndexMap := [0]
  indexVectorDim := 1
  sliceSizes := ![1, 1]
  wf := gather_S200000x1_S6600000x1_S6600000x1_1_0_n_n_0_1_11_wf
def scatter_S200000x1_S6600000x1_S6600000x1_1_0_0_1 : ScatterDims S200000x1 S6600000x1 S6600000x1 where
  updateWindowDims := [1]
  insertedWindowDims := [0]
  scatterDimsToOperandDims := [0]
  indexVectorDim := 1
  wf := scatter_S200000x1_S6600000x1_S6600000x1_1_0_0_1_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S10000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S10000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S200000x3 : Shape := ⟨2, ![200000, 3]⟩
abbrev S2x6400000 : Shape := ⟨2, ![2, 6400000]⟩
abbrev S3x16 : Shape := ⟨2, ![3, 16]⟩
abbrev S16 : Shape := ⟨1, ![16]⟩
abbrev S16x1 : Shape := ⟨2, ![16, 1]⟩
abbrev S1 : Shape := ⟨1, ![1]⟩
abbrev S1x6400000 : Shape := ⟨2, ![1, 6400000]⟩
abbrev S6400000 : Shape := ⟨1, ![6400000]⟩
abbrev S200000x16 : Shape := ⟨2, ![200000, 16]⟩
abbrev S200000 : Shape := ⟨1, ![200000]⟩
abbrev S6600000 : Shape := ⟨1, ![6600000]⟩
abbrev S_ : Shape := ⟨0, ![]⟩
abbrev S6600000x1 : Shape := ⟨2, ![6600000, 1]⟩
abbrev S6600000x16 : Shape := ⟨2, ![6600000, 16]⟩
abbrev S1x16 : Shape := ⟨2, ![1, 16]⟩
abbrev S200000x1 : Shape := ⟨2, ![200000, 1]⟩
abbrev S1x1 : Shape := ⟨2, ![1, 1]⟩

abbrev nBuf : Space → Nat
  | .hbm => 124
  | .vmem => 0
  | .smem => 0
  | _ => 0

abbrev bufTy : (tb : Table) → Fin (tcTables nBuf tb) → BufTy
  | .hbm, ⟨0, _⟩ => ⟨S200000x3, .f32⟩
  | .hbm, ⟨1, _⟩ => ⟨S2x6400000, .i32⟩
  | .hbm, ⟨2, _⟩ => ⟨S3x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S200000x16, .f32⟩
  | .hbm, ⟨11, _⟩ => ⟨S200000, .i32⟩
  | .hbm, ⟨12, _⟩ => ⟨S6600000, .i32⟩
  | .hbm, ⟨13, _⟩ => ⟨S6600000, .i32⟩
  | .hbm, ⟨14, _⟩ => ⟨S_, .f32⟩
  | .hbm, ⟨15, _⟩ => ⟨S6600000, .f32⟩
  | .hbm, ⟨16, _⟩ => ⟨S_, .f32⟩
  | .hbm, ⟨17, _⟩ => ⟨S200000, .f32⟩
  | .hbm, ⟨18, _⟩ => ⟨S6600000x1, .i32⟩
  | .hbm, ⟨19, _⟩ => ⟨S200000, .f32⟩
  | .hbm, ⟨20, _⟩ => ⟨S_, .f32⟩
  | .hbm, ⟨21, _⟩ => ⟨S200000, .f32⟩
  | .hbm, ⟨22, _⟩ => ⟨S200000, .i1⟩
  | .hbm, ⟨23, _⟩ => ⟨S200000, .f32⟩
  | .hbm, ⟨24, _⟩ => ⟨S_, .f32⟩
  | .hbm, ⟨25, _⟩ => ⟨S_, .f32⟩
  | .hbm, ⟨26, _⟩ => ⟨S200000, .f32⟩
  | .hbm, ⟨27, _⟩ => ⟨S200000, .f32⟩
  | .hbm, ⟨28, _⟩ => ⟨S_, .i32⟩
  | .hbm, ⟨29, _⟩ => ⟨S6600000, .i32⟩
  | .hbm, ⟨30, _⟩ => ⟨S6600000, .i1⟩
  | .hbm, ⟨31, _⟩ => ⟨S_, .i32⟩
  | .hbm, ⟨32, _⟩ => ⟨S6600000, .i32⟩
  | .hbm, ⟨33, _⟩ => ⟨S6600000, .i32⟩
  | .hbm, ⟨34, _⟩ => ⟨S6600000, .i32⟩
  | .hbm, ⟨35, _⟩ => ⟨S6600000x1, .i32⟩
  | .hbm, ⟨36, _⟩ => ⟨S6600000, .f32⟩
  | .hbm, ⟨37, _⟩ => ⟨S_, .i32⟩
  | .hbm, ⟨38, _⟩ => ⟨S6600000, .i32⟩
  | .hbm, ⟨39, _⟩ => ⟨S6600000, .i1⟩
  | .hbm, ⟨40, _⟩ => ⟨S_, .i32⟩
  | .hbm, ⟨41, _⟩ => ⟨S6600000, .i32⟩
  | .hbm, ⟨42, _⟩ => ⟨S6600000, .i32⟩
  | .hbm, ⟨43, _⟩ => ⟨S6600000, .i32⟩
  | .hbm, ⟨44, _⟩ => ⟨S6600000x1, .i32⟩
  | .hbm, ⟨45, _⟩ => ⟨S6600000, .f32⟩
  | .hbm, ⟨46, _⟩ => ⟨S6600000, .f32⟩
  | .hbm, ⟨47, _⟩ => ⟨S_, .i32⟩
  | .hbm, ⟨48, _⟩ => ⟨S6600000, .i32⟩
  | .hbm, ⟨49, _⟩ => ⟨S6600000, .i1⟩
  | .hbm, ⟨50, _⟩ => ⟨S_, .i32⟩
  | .hbm, ⟨51, _⟩ => ⟨S6600000, .i32⟩
  | .hbm, ⟨52, _⟩ => ⟨S6600000, .i32⟩
  | .hbm, ⟨53, _⟩ => ⟨S6600000, .i32⟩
  | .hbm, ⟨54, _⟩ => ⟨S6600000x1, .i32⟩
  | .hbm, ⟨55, _⟩ => ⟨S6600000x16, .f32⟩
  | .hbm, ⟨56, _⟩ => ⟨S6600000x1, .f32⟩
  | .hbm, ⟨57, _⟩ => ⟨S6600000x16, .f32⟩
  | .hbm, ⟨58, _⟩ => ⟨S6600000x16, .f32⟩
  | .hbm, ⟨59, _⟩ => ⟨S_, .f32⟩
  | .hbm, ⟨60, _⟩ => ⟨S200000x16, .f32⟩
  | .hbm, ⟨61, _⟩ => ⟨S6600000x1, .i32⟩
  | .hbm, ⟨62, _⟩ => ⟨S200000x16, .f32⟩
  | .hbm, ⟨63, _⟩ => ⟨S1x16, .f32⟩
  | .hbm, ⟨64, _⟩ => ⟨S200000x16, .f32⟩
  | .hbm, ⟨65, _⟩ => ⟨S200000x16, .f32⟩
  | .hbm, ⟨66, _⟩ => ⟨S_, .f32⟩
  | .hbm, ⟨67, _⟩ => ⟨S200000x16, .f32⟩
  | .hbm, ⟨68, _⟩ => ⟨S200000x16, .f32⟩
  | .hbm, ⟨69, _⟩ => ⟨S200000x1, .f32⟩
  | .hbm, ⟨70, _⟩ => ⟨S200000, .i32⟩
  | .hbm, ⟨71, _⟩ => ⟨S6600000, .i32⟩
  | .hbm, ⟨72, _⟩ => ⟨S6600000, .i32⟩
  | .hbm, ⟨73, _⟩ => ⟨S_, .f32⟩
  | .hbm, ⟨74, _⟩ => ⟨S6600000, .f32⟩
  | .hbm, ⟨75, _⟩ => ⟨S_, .f32⟩
  | .hbm, ⟨76, _⟩ => ⟨S200000, .f32⟩
  | .hbm, ⟨77, _⟩ => ⟨S6600000x1, .i32⟩
  | .hbm, ⟨78, _⟩ => ⟨S200000, .f32⟩
  | .hbm, ⟨79, _⟩ => ⟨S_, .f32⟩
  | .hbm, ⟨80, _⟩ => ⟨S200000, .f32⟩
  | .hbm, ⟨81, _⟩ => ⟨S200000, .i1⟩
  | .hbm, ⟨82, _⟩ => ⟨S200000, .f32⟩
  | .hbm, ⟨83, _⟩ => ⟨S_, .f32⟩
  | .hbm, ⟨84, _⟩ => ⟨S_, .f32⟩
  | .hbm, ⟨85, _⟩ => ⟨S200000, .f32⟩
  | .hbm, ⟨86, _⟩ => ⟨S200000, .f32⟩
  | .hbm, ⟨87, _⟩ => ⟨S_, .i32⟩
  | .hbm, ⟨88, _⟩ => ⟨S6600000, .i32⟩
  | .hbm, ⟨89, _⟩ => ⟨S6600000, .i1⟩
  | .hbm, ⟨90, _⟩ => ⟨S_, .i32⟩
  | .hbm, ⟨91, _⟩ => ⟨S6600000, .i32⟩
  | .hbm, ⟨92, _⟩ => ⟨S6600000, .i32⟩
  | .hbm, ⟨93, _⟩ => ⟨S6600000, .i32⟩
  | .hbm, ⟨94, _⟩ => ⟨S6600000x1, .i32⟩
  | .hbm, ⟨95, _⟩ => ⟨S6600000, .f32⟩
  | .hbm, ⟨96, _⟩ => ⟨S_, .i32⟩
  | .hbm, ⟨97, _⟩ => ⟨S6600000, .i32⟩
  | .hbm, ⟨98, _⟩ => ⟨S6600000, .i1⟩
  | .hbm, ⟨99, _⟩ => ⟨S_, .i32⟩
  | .hbm, ⟨100, _⟩ => ⟨S6600000, .i32⟩
  | .hbm, ⟨101, _⟩ => ⟨S6600000, .i32⟩
  | .hbm, ⟨102, _⟩ => ⟨S6600000, .i32⟩
  | .hbm, ⟨103, _⟩ => ⟨S6600000x1, .i32⟩
  | .hbm, ⟨104, _⟩ => ⟨S6600000, .f32⟩
  | .hbm, ⟨105, _⟩ => ⟨S6600000, .f32⟩
  | .hbm, ⟨106, _⟩ => ⟨S_, .i32⟩
  | .hbm, ⟨107, _⟩ => ⟨S6600000, .i32⟩
  | .hbm, ⟨108, _⟩ => ⟨S6600000, .i1⟩
  | .hbm, ⟨109, _⟩ => ⟨S_, .i32⟩
  | .hbm, ⟨110, _⟩ => ⟨S6600000, .i32⟩
  | .hbm, ⟨111, _⟩ => ⟨S6600000, .i32⟩
  | .hbm, ⟨112, _⟩ => ⟨S6600000, .i32⟩
  | .hbm, ⟨113, _⟩ => ⟨S6600000x1, .i32⟩
  | .hbm, ⟨114, _⟩ => ⟨S6600000x1, .f32⟩
  | .hbm, ⟨115, _⟩ => ⟨S6600000x1, .f32⟩
  | .hbm, ⟨116, _⟩ => ⟨S6600000x1, .f32⟩
  | .hbm, ⟨117, _⟩ => ⟨S_, .f32⟩
  | .hbm, ⟨118, _⟩ => ⟨S200000x1, .f32⟩
  | .hbm, ⟨119, _⟩ => ⟨S6600000x1, .i32⟩
  | .hbm, ⟨120, _⟩ => ⟨S200000x1, .f32⟩
  | .hbm, ⟨121, _⟩ => ⟨S1x1, .f32⟩
  | .hbm, ⟨122, _⟩ => ⟨S200000x1, .f32⟩
  | .hbm, ⟨123, _⟩ => ⟨S200000x1, .f32⟩
  | _, _ => ⟨S200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_19 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  dot_S200000x3_S3x16_S200000x16_1_0_0_1_n_n_wf : DotDims.WF S200000x3 S3x16 S200000x16 [1] [0] [0] [1] [] []
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S200000x16_S16x1_S200000x1_1_0_0_1_n_n_wf : DotDims.WF S200000x16 S16x1 S200000x1 [1] [0] [0] [1] [] []
  gather_S200000x1_S6600000x1_S6600000x1_1_0_n_n_0_1_11_wf : GatherDims.WF S200000x1 S6600000x1 S6600000x1 [1] [0] [] [0] [] 1 ![1, 1]
  scatter_S200000x1_S6600000x1_S6600000x1_1_0_0_1_wf : ScatterDims.WF S200000x1 S6600000x1 S6600000x1 [1] [0] [0] 1

variable [Facts₀]

def dot_S200000x3_S3x16_S200000x16_1_0_0_1_n_n : DotDims S200000x3 S3x16 S200000x16 where
  lhsContracting := [1]
  rhsContracting := [0]
  lhsNonContracting := [0]
  rhsNonContracting := [1]
  lhsBatch := []
  rhsBatch := []
  wf := dot_S200000x3_S3x16_S200000x16_1_0_0_1_n_n_wf
def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S200000x16_S16x1_S200000x1_1_0_0_1_n_n : DotDims S200000x16 S16x1 S200000x1 where
  lhsContracting := [1]
  rhsContracting := [0]
  lhsNonContracting := [0]
  rhsNonContracting := [1]
  lhsBatch := []
  rhsBatch := []
  wf := dot_S200000x16_S16x1_S200000x1_1_0_0_1_n_n_wf
def gather_S200000x1_S6600000x1_S6600000x1_1_0_n_n_0_1_11 : GatherDims S200000x1 S6600000x1 S6600000x1 where
  offsetDims := [1]
  collapsedSliceDims := [0]
  operandBatchingDims := []
  startIndicesBatchingDims := []
  startIndexMap := [0]
  indexVectorDim := 1
  sliceSizes := ![1, 1]
  wf := gather_S200000x1_S6600000x1_S6600000x1_1_0_n_n_0_1_11_wf
def scatter_S200000x1_S6600000x1_S6600000x1_1_0_0_1 : ScatterDims S200000x1 S6600000x1 S6600000x1 where
  updateWindowDims := [1]
  insertedWindowDims := [0]
  scatterDimsToOperandDims := [0]
  indexVectorDim := 1
  wf := scatter_S200000x1_S6600000x1_S6600000x1_1_0_0_1_wf

class Facts : Prop extends Facts₀ where

variable [Facts]
-- ==== Proof.KernelHost.lean ====
/-
  The host operations around the four dense stages, read as functions of whole arrays.

  Both layers aggregate along the same edge list: the given edges followed by one self-loop per node. Written once as
  functions: the list's sources and targets; an index column, with a negative index counted from the end; the
  degree of every node (how often it is a target), its inverse square root where positive; the weight of a list
  entry, the product of its two ends' inverse roots; and the aggregation itself, which gathers a feature array at the
  sources, scales each gathered row by its entry's weight and sums the rows into their targets. The stretches of
  operations between the dense stages are exactly these functions of what the stretch finds in the buffers: the two
  lists and the weights are computed once before the first stage and are carried, untouched, to both aggregations.
-/
import proofs.«116396_j8280696947375_1_alg».proof.Proof.Gen.KernelIdeal.Frame
import Idealize.ShloMosaic.Lib.StableHlo.Run

set_option maxRecDepth 16384

noncomputable section

namespace Cert.KernelIdeal.HostK

open Cert.KernelIdeal Cert.KernelIdeal.Gen
open Idealize.ShloMosaic Idealize.ShloMosaic.TcCoe Idealize.SL.Sem Idealize.ShloMosaic.StableHlo

variable {F : FTy → Type} [FloatOps F]

/-! ## The host operations the two layers share, as functions of whole arrays -/

/-- The edges' source nodes followed by every node once (the self-loops). -/
def src (e : IVec S2x6400000 32) : IVec S6600000 32 :=
  concatenate S6600000 0 [⟨S6400000, shapeCast S6400000 (extractStridedSlice S1x6400000 ![0, 0] e slices_S2x6400000_S1x6400000_0_0) shapeCasts_S1x6400000_S6400000⟩, ⟨S200000, iotaInDim S200000 32 0⟩] concatenates_S6400000_S200000_S6600000_d0

/-- The edges' target nodes followed by every node once. -/
def dst (e : IVec S2x6400000 32) : IVec S6600000 32 :=
  concatenate S6600000 0 [⟨S6400000, shapeCast S6400000 (extractStridedSlice S1x6400000 ![1, 0] e slices_S2x6400000_S1x6400000_1_0) shapeCasts_S1x6400000_S6400000⟩, ⟨S200000, iotaInDim S200000 32 0⟩] concatenates_S6400000_S200000_S6600000_d0

/-- A node list as a column of index words. -/
def col (i : IVec S6600000 32) : IVec S6600000x1 32 := broadcastInDim S6600000x1 ![0] bcast_S6600000_S6600000x1_0 i

/-- The same with a negative word counted from the end first. -/
def wrapCol (i : IVec S6600000 32) : IVec S6600000x1 32 :=
  broadcastInDim S6600000x1 ![0] bcast_S6600000_S6600000x1_0
    (select (cmpi .slt i (broadcastInDim S6600000 ![] bcast_S_S6600000 (constantI S_ 32 0#32)))
      (addi i (broadcastInDim S6600000 ![] bcast_S_S6600000 (constantI S_ 32 200000#32))) i)

/-- How many list entries name each node. -/
def deg (d : IVec S6600000 32) : FVec F S200000 .f32 :=
  Host.scatterAdd scatter_S200000_S6600000x1_S6600000_n_0_0_1 (broadcastInDim S200000 ![] bcast_S_S200000 (constant S_ .f32 0x00000000#32)) (col d)
    (broadcastInDim S6600000 ![] bcast_S_S6600000 (constant S_ .f32 0x3F800000#32))

/-- The inverse square root of a positive degree, zero otherwise. -/
def dinv (g : FVec F S200000 .f32) : FVec F S200000 .f32 :=
  select (cmpf .ogt g (broadcastInDim S200000 ![] bcast_S_S200000 (constant S_ .f32 0x00000000#32))) (Host.rsqrt g)
    (broadcastInDim S200000 ![] bcast_S_S200000 (id (constant S_ .f32 0x00000000#32)))

/-- The weight of each list entry: the two ends' inverse root degrees multiplied. -/
def norm (s d : IVec S6600000 32) : FVec F S6600000 .f32 :=
  mulf (Host.gather gather_S200000_S6600000x1_S6600000_n_0_n_n_0_1_1 (dinv (deg (F := F) d)) (wrapCol s))
    (Host.gather gather_S200000_S6600000x1_S6600000_n_0_n_n_0_1_1 (dinv (deg (F := F) d)) (wrapCol d))

/-- Sixteen features gathered at the sources, weighted, summed into the targets. -/
def agg16 (h : FVec F S200000x16 .f32) (s d : IVec S6600000 32) (n : FVec F S6600000 .f32) : FVec F S200000x16 .f32 :=
  Host.scatterAdd scatter_S200000x16_S6600000x1_S6600000x16_1_0_0_1 (broadcastInDim S200000x16 ![] bcast_S_S200000x16 (constant S_ .f32 0x00000000#32)) (col d)
    (mulf (Host.gather gather_S200000x16_S6600000x1_S6600000x16_1_0_n_n_0_1_116 h (wrapCol s))
      (broadcastInDim S6600000x16 ![0, 1] bcast_S6600000x1_S6600000x16_0_1 (broadcastInDim S6600000x1 ![0] bcast_S6600000_S6600000x1_0 n)))

/-- One feature gathered at the sources, weighted, summed into the targets. -/
def agg1 (h : FVec F S200000x1 .f32) (s d : IVec S6600000 32) (n : FVec F S6600000 .f32) : FVec F S200000x1 .f32 :=
  Host.scatterAdd scatter_S200000x1_S6600000x1_S6600000x1_1_0_0_1 (broadcastInDim S200000x1 ![] bcast_S_S200000x1 (constant S_ .f32 0x00000000#32)) (col d)
    (mulf (Host.gather gather_S200000x1_S6600000x1_S6600000x1_1_0_n_n_0_1_11 h (wrapCol s))
      (broadcastInDim S6600000x1 ![0] bcast_S6600000_S6600000x1_0 n))

variable (m : (ℓ : Loc nD τ sig) → Buf (Elt F) ℓ) (ρ : Dev nD → PrngReg)

/-! ## Before the first region: the two node lists, the entry weights, and the arguments as launched -/

theorem entry0_src (c : Dev nD) : V3 m ρ c main_v5 = src (m ((c : Thread nD τ).loc main_arg1)) := by
  show StableHlo.after hostOps0_2 (StableHlo.after hostOps0_1 (StableHlo.after hostOps0 (W0 m ρ c))) (Proc.devRef .tc main_v5) = _
  unfold src
  after_results_simp <;> rfl

theorem entry0_dst (c : Dev nD) : V3 m ρ c main_v6 = dst (m ((c : Thread nD τ).loc main_arg1)) := by
  show StableHlo.after hostOps0_2 (StableHlo.after hostOps0_1 (StableHlo.after hostOps0 (W0 m ρ c))) (Proc.devRef .tc main_v6) = _
  unfold dst
  after_results_simp <;> rfl

theorem entry0_norm (c : Dev nD) :
    V3 m ρ c main_v29 = norm (F := F) (src (m ((c : Thread nD τ).loc main_arg1))) (dst (m ((c : Thread nD τ).loc main_arg1))) := by
  show StableHlo.after hostOps0_2 (StableHlo.after hostOps0_1 (StableHlo.after hostOps0 (W0 m ρ c))) (Proc.devRef .tc main_v29) = _
  unfold norm dinv deg col wrapCol src dst
  after_results_simp <;> rfl

theorem entry0_arg0 (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  after_results_simp <;> rfl
theorem entry0_arg2 (c : Dev nD) : V3 m ρ c main_arg2 = m ((c : Thread nD τ).loc main_arg2) := by
  show StableHlo.after hostOps0_2 (StableHlo.after hostOps0_1 (StableHlo.after hostOps0 (W0 m ρ c))) (Proc.devRef .tc main_arg2) = _
  after_results_simp <;> rfl
theorem entry0_arg3 (c : Dev nD) : V3 m ρ c main_arg3 = m ((c : Thread nD τ).loc main_arg3) := by
  show StableHlo.after hostOps0_2 (StableHlo.after hostOps0_1 (StableHlo.after hostOps0 (W0 m ρ c))) (Proc.devRef .tc main_arg3) = _
  after_results_simp <;> rfl
theorem entry0_arg4 (c : Dev nD) : V3 m ρ c main_arg4 = m ((c : Thread nD τ).loc main_arg4) := by
  show StableHlo.after hostOps0_2 (StableHlo.after hostOps0_1 (StableHlo.after hostOps0 (W0 m ρ c))) (Proc.devRef .tc main_arg4) = _
  after_results_simp <;> rfl
theorem entry0_arg5 (c : Dev nD) : V3 m ρ c main_arg5 = m ((c : Thread nD τ).loc main_arg5) := by
  show StableHlo.after hostOps0_2 (StableHlo.after hostOps0_1 (StableHlo.after hostOps0 (W0 m ρ c))) (Proc.devRef .tc main_arg5) = _
  after_results_simp <;> rfl

/-! ## Between the first product and the first bias stage -/

theorem entry1_agg (c : Dev nD) :
    V5 m ρ c main_v43 = agg16 (F := F) (V4 m ρ c main_v30) (V4 m ρ c main_v5) (V4 m ρ c main_v6) (V4 m ρ c main_v29) := by
  show StableHlo.after hostOps1 (W4 m ρ c) (Proc.devRef .tc main_v43) = _
  unfold agg16 col wrapCol
  after_results_simp <;> rfl

theorem entry1_bias (c : Dev nD) :
    V5 m ρ c main_v44 = shapeCast S1x16 (V4 m ρ c main_arg3) shapeCasts_S16_S1x16 := by
  show StableHlo.after hostOps1 (W4 m ρ c) (Proc.devRef .tc main_v44) = _
  after_results_simp <;> rfl

theorem entry1_src (c : Dev nD) : V5 m ρ c main_v5 = V4 m ρ c main_v5 := by
  show StableHlo.after hostOps1 (W4 m ρ c) (Proc.devRef .tc main_v5) = _
  after_results_simp <;> rfl
theorem entry1_dst (c : Dev nD) : V5 m ρ c main_v6 = V4 m ρ c main_v6 := by
  show StableHlo.after hostOps1 (W4 m ρ c) (Proc.devRef .tc main_v6) = _
  after_results_simp <;> rfl
theorem entry1_norm (c : Dev nD) : V5 m ρ c main_v29 = V4 m ρ c main_v29 := by
  show StableHlo.after hostOps1 (W4 m ρ c) (Proc.devRef .tc main_v29) = _
  after_results_simp <;> rfl
theorem entry1_arg4 (c : Dev nD) : V5 m ρ c main_arg4 = V4 m ρ c main_arg4 := by
  show StableHlo.after hostOps1 (W4 m ρ c) (Proc.devRef .tc main_arg4) = _
  after_results_simp <;> rfl
theorem entry1_arg5 (c : Dev nD) : V5 m ρ c main_arg5 = V4 m ρ c main_arg5 := by
  show StableHlo.after hostOps1 (W4 m ρ c) (Proc.devRef .tc main_arg5) = _
  after_results_simp <;> rfl

/-! ## Between the second product and the second bias stage -/

theorem entry3_agg (c : Dev nD) :
    V8 m ρ c main_v58 = agg1 (F := F) (V7 m ρ c main_v46) (V7 m ρ c main_v5) (V7 m ρ c main_v6) (V7 m ρ c main_v29) := by
  show StableHlo.after hostOps3 (W7 m ρ c) (Proc.devRef .tc main_v58) = _
  unfold agg1 col wrapCol
  after_results_simp <;> rfl

theorem entry3_bias (c : Dev nD) :
    V8 m ρ c main_v59 = shapeCast S1x1 (V7 m ρ c main_arg5) shapeCasts_S1_S1x1 := by
  show StableHlo.after hostOps3 (W7 m ρ c) (Proc.devRef .tc main_v59) = _
  after_results_simp <;> rfl

end Cert.KernelIdeal.HostK

end
-- ==== Proof.Spec.lean ====
/-
  The four dense stages of a two-layer graph convolution, each as ONE function of whole arrays, index by index
  over the extended reals.

  A layer multiplies the node features by a weight matrix, gathers the products along the edges scaled by the
  symmetric degree normalisation, sums them into the target nodes, and adds a bias row; the first layer then takes
  the positive part. The gather, the scaling and the scatter-sum are the same host operations in both programs and
  are never opened here. What differs is how the two dense stages are computed: tile by tile on ten thousand rows
  in one program, on the whole array in the other. Both read the same function:

  * rows by columns: entry (p, q) of the product is the sum over k of x (p, k) times w (k, q);
  * a bias ROW added to every row of an array, entry (p, q) being a (p, q) + b (0, q), with or without the
    positive part max (., 0) afterwards.
-/
import Idealize.ShloMosaic.PureOps.Ideal
import Idealize.ShloMosaic.Lib.ValueIdx

noncomputable section

namespace Cert.Gcn

open Idealize.ShloMosaic Idealize.ShloMosaic.ValueIdx
open scoped BigOperators

/-- Rows by columns: entry (p, q) is the sum over the shared axis of x (p, k) * w (k, q). -/
def rowsDot {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem rowsDot_apply {A K B : Nat} (x : (⟨2, ![A, K]⟩ : Shape).Idx → EReal) (w : (⟨2, ![K, B]⟩ : Shape).Idx → EReal)
    (p : Fin A) (q : Fin B) : rowsDot x w (ix2 p q) = ∑ k : Fin K, x (ix2 p k) * w (ix2 k q) := rfl

/-- A bias row added to every row: entry (p, q) is a (p, q) + b (0, q). -/
def addRow {A B : Nat} (a : (⟨2, ![A, B]⟩ : Shape).Idx → EReal) (b : (⟨2, ![1, B]⟩ : Shape).Idx → EReal) :
    (⟨2, ![A, B]⟩ : Shape).Idx → EReal :=
  fun i => a i + b (ix2 0 (i 1))

theorem addRow_apply {A B : Nat} (a : (⟨2, ![A, B]⟩ : Shape).Idx → EReal) (b : (⟨2, ![1, B]⟩ : Shape).Idx → EReal)
    (p : Fin A) (q : Fin B) : addRow a b (ix2 p q) = a (ix2 p q) + b (ix2 0 q) := rfl

/-- The same followed by the positive part: entry (p, q) is max (a (p, q) + b (0, q)) 0. -/
def addRowPos {A B : Nat} (a : (⟨2, ![A, B]⟩ : Shape).Idx → EReal) (b : (⟨2, ![1, B]⟩ : Shape).Idx → EReal) :
    (⟨2, ![A, B]⟩ : Shape).Idx → EReal :=
  fun i => max (a i + b (ix2 0 (i 1))) 0

theorem addRowPos_apply {A B : Nat} (a : (⟨2, ![A, B]⟩ : Shape).Idx → EReal) (b : (⟨2, ![1, B]⟩ : Shape).Idx → EReal)
    (p : Fin A) (q : Fin B) : addRowPos a b (ix2 p q) = max (a (ix2 p q) + b (ix2 0 q)) 0 := rfl

end Cert.Gcn

end
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.Region0.lean ====
/-
  The dense stage that opens the first layer, tile by tile: the 200000 x 3 feature array is cut into twenty blocks of
  10000 rows, and each block is multiplied by the whole 3 x 16 weight matrix (both operands narrowed to a shorter
  float format first, which changes nothing over the extended reals; the accumulator starts at zero). Entry (p, q) of
  block t of the product is the sum over k of feature (10000 t + p, k) times weight (k, q): block t of the result is
  block t of the ONE function "rows by columns", and the twenty blocks cover every row (row r lies in block
  r / 10000), so the array after the stage is the rows-by-columns product of the two arrays it was entered with.
-/
import proofs.«116396_j8280696947375_1_alg».proof.Proof.Gen.KernelIdeal.Frame
import proofs.«116396_j8280696947375_1_alg».proof.Proof.Spec
import proofs.«116396_j8280696947375_1_alg».proof.Proof.LibDotFormats
import Idealize.ShloMosaic.Lib.ValueLayout
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- The stores and loads of the body sit at offset zero of their buffers. -/
theorem hz : (![0, 0] : Fin 2 → Nat) = fun _ => 0 := funext fun a => by fin_cases a <;> rfl

/-- The body's arithmetic at one entry: the block's row p against the weight's column q, summed over the three
    shared coordinates. -/
theorem pay_apply (x0 : Vec Ideal S10000x3 .f32) (x1 : Vec Ideal S3x16 .f32) (p : Fin 10000) (q : Fin 16) :
    k0_pay1 (F := Ideal) x0 x1 (ix2 p q) = ∑ k : Fin 3, x0 (ix2 p k) * x1 (ix2 k q) := by
  unfold k0_pay1
  exact Cert.LibDotFormats.matmul_cols_zero_apply (A := 10000) (K := 3) (B := 16)
    dot_S10000x3_S3x16_S10000x16_1_0_0_1_n_n rfl rfl rfl rfl rfl rfl none
    (truncf .bf16 x0 bitsLt_bf16_f32) (truncf .bf16 x1 bitsLt_bf16_f32) p q

/-- The printed index maps over the grid: the row blocks move with the point, the weight matrix stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The two arrays the region is entered with, at their literal types. -/
abbrev inA (c : Dev nD) : Vec Ideal S200000x3 .f32 := V c main_arg0
abbrev inB (c : Dev nD) : Vec Ideal S3x16 .f32 := V c main_arg2

/-- What grid point t writes back is block t of the whole-array function. -/
theorem flushed_eq (c : Dev nD) (t : Fin cfg0.N) :
    (dat0 (F := Ideal) V c).flushed 2 t
      = ((cfg0.win 2).blk t).view.read (Elt Ideal) (Cert.Gcn.rowsDot (A := 200000) (K := 3) (B := 16) (V c main_arg0) (V c main_arg2)) := by
  show (cfg0.win 2).cut (grid0.coords t) ((dat0 V c).after 2 t) = _
  rw [after0_2]
  unfold out0_2
  rw [View.canon_unit_zero hz]
  simp only [View.ld_unit_zero (S := S10000x3) hz, View.ld_unit_zero (S := S3x16) hz]
  funext j
  obtain ⟨p, q, rfl⟩ : ∃ (p : Fin 10000) (q : Fin 16), j = ix2 p q := ⟨j 0, j 1, eq_ix2 j⟩
  show k0_pay1 (iblk0 V c 0 t) (iblk0 V c 1 t) (ix2 p q)
      = Cert.Gcn.rowsDot (A := 200000) (K := 3) (B := 16) (V c main_arg0) (V c main_arg2) (((cfg0.win 2).blk t).view.emb (ix2 p q))
  refine (pay_apply _ _ p q).trans ?_
  obtain ⟨e0, e1, e2, e3, e4, e5⟩ := idx_facts t
  have hp : p.val < 10000 := p.isLt
  have hq : q.val < 16 := q.isLt
  show (∑ k : Fin 3, inA V c (((cfg0.win 0).blk t).view.emb (ix2 p k)) * inB V c (((cfg0.win 1).blk t).view.emb (ix2 k q)))
      = ∑ k : Fin 3, inA V c (ix2 ((((cfg0.win 2).blk t).view.emb (ix2 p q)) 0) k)
          * inB V c (ix2 k ((((cfg0.win 2).blk t).view.emb (ix2 p q)) 1))
  refine Finset.sum_congr rfl fun k _ => ?_
  have hk : k.val < 3 := k.isLt
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 3 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 3 + 1 * k.val = k.val; omega
    | ⟨1, _⟩ => show win0_1.index t (1 : Fin 2) * 16 + 1 * q.val = win0_2.index t (1 : Fin 2) * 16 + 1 * q.val; omega
  rw [h0, h1]
  rfl

/-- An index of the array is in point t's block iff each coordinate is in the block's range on its axis. -/
theorem mem_blk (t : Fin cfg0.N) (i : S200000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v30).slice (win0_2.rect t)).set ↔ _
  rw [View.set_slice_whole, Rect.mem_set_unit]
  exact Iff.rfl

/-- Every row lies in the block of the point row / 10000. -/
theorem cover (i : S200000x16.Idx) : ∃ t : Fin cfg0.N, (cfg0.win 2).flush t = true ∧ i ∈ ((cfg0.win 2).blk t).view.set := by
  have hi0 : (i 0).val < 200000 := (i 0).isLt
  have hi1 : (i 1).val < 16 := (i 1).isLt
  have hN : cfg0.N = 20 := N_0
  have ht : (i 0).val / 10000 < cfg0.N := by rw [hN]; omega
  refine ⟨⟨(i 0).val / 10000, ht⟩, flush0_2 _, ?_⟩
  rw [mem_blk]
  obtain ⟨e0, e1, e2, e3, e4, e5⟩ := idx_facts ⟨(i 0).val / 10000, ht⟩
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 16 ≤ (i 1).val
      ∧ (i 1).val < win0_2.index ⟨(i 0).val / 10000, ht⟩ (1 : Fin 2) * 16 + 16
    rw [e5]; omega

/-- After the first product region its output array is rows by columns of the two arrays the region was entered with. -/
theorem arr_eq (c : Dev nD) :
    (dat0 (F := Ideal) V c).arrAt 2 cfg0.N
      = Cert.Gcn.rowsDot (A := 200000) (K := 3) (B := 16) (V c main_arg0) (V c main_arg2) :=
  (dat0 (F := Ideal) V c).arrAt_eq_of_cover 2 _ (fun t _ => flushed_eq V c t) cover

end Cert.KernelIdeal.Region0

end
-- ==== Proof.Region1.lean ====
/-
  The last stage of the first layer, tile by tile: the aggregated 200000 x 16 array is cut into twenty blocks of
  10000 rows; at each block the 16-entry bias row is added to every row and the positive part taken. Entry (p, q) of
  block t is entry (10000 t + p, q) of the array, so block t of the result is block t of the ONE function
  "max (array + bias row, 0)", and the twenty blocks cover every row (row r lies in block r / 10000): the array after
  the stage is that function of the two arrays the stage was entered with.
-/
import proofs.«116396_j8280696947375_1_alg».proof.Proof.Gen.KernelIdeal.Frame
import proofs.«116396_j8280696947375_1_alg».proof.Proof.Spec
import Idealize.ShloMosaic.Lib.ValueLayout
import Idealize.ShloMosaic.Lib.Pipeline.Value
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

/-- The stores and loads of the body sit at offset zero of their buffers. -/
theorem hz : (![0, 0] : Fin 2 → Nat) = fun _ => 0 := funext fun a => by fin_cases a <;> rfl

/-- The body's arithmetic at one entry: the loaded block's entry plus the bias row's entry of that column, or zero
    if that is larger. -/
theorem pay_apply (x0 : Vec Ideal S10000x16 .f32) (x1 : Vec Ideal S1x16 .f32) (p : Fin 10000) (q : Fin 16) :
    k1_pay1 (F := Ideal) x0 x1 (ix2 p q) = max (x0 (ix2 p q) + x1 (ix2 0 q)) 0 := by
  unfold k1_pay1
  show max ((shapeCast S10000x16 x0 shapeCasts_S10000x16_S10000x16 (ix2 p q) : EReal)
      + broadcastTo S10000x16 (shapeCast S1x16 x1 shapeCasts_S1x16_S1x16) broadcasts_S1x16_S10000x16 (ix2 p q))
      (Ideal.ofBits .f32 0x00000000#32) = _
  rw [shapeCast_self, shapeCast_self, broadcastTo_1b_ab_apply, Ideal.ofBits_zero_f32]

/-- The printed index maps over the grid: the row blocks move with the point, the bias row stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The two arrays the region is entered with, at their literal types. -/
abbrev inA (c : Dev nD) : Vec Ideal S200000x16 .f32 := V c main_v43
abbrev inB (c : Dev nD) : Vec Ideal S1x16 .f32 := V c main_v44

/-- What grid point t writes back is block t of the whole-array function. -/
theorem flushed_eq (c : Dev nD) (t : Fin cfg1.N) :
    (dat1 (F := Ideal) V c).flushed 2 t
      = ((cfg1.win 2).blk t).view.read (Elt Ideal) (Cert.Gcn.addRowPos (A := 200000) (B := 16) (V c main_v43) (V c main_v44)) := by
  show (cfg1.win 2).cut (grid1.coords t) ((dat1 V c).after 2 t) = _
  rw [after1_2]
  unfold out1_2
  rw [View.canon_unit_zero hz]
  simp only [View.ld_unit_zero (S := S10000x16) hz, View.ld_unit_zero (S := S1x16) hz]
  funext j
  obtain ⟨p, q, rfl⟩ : ∃ (p : Fin 10000) (q : Fin 16), j = ix2 p q := ⟨j 0, j 1, eq_ix2 j⟩
  show k1_pay1 (iblk1 V c 0 t) (iblk1 V c 1 t) (ix2 p q)
      = Cert.Gcn.addRowPos (A := 200000) (B := 16) (V c main_v43) (V c main_v44) (((cfg1.win 2).blk t).view.emb (ix2 p q))
  refine (pay_apply _ _ p q).trans ?_
  obtain ⟨e0, e1, e2, e3, e4, e5⟩ := idx_facts t
  have hp : p.val < 10000 := p.isLt
  have hq : q.val < 16 := q.isLt
  show max (inA V c (((cfg1.win 0).blk t).view.emb (ix2 p q)) + inB V c (((cfg1.win 1).blk t).view.emb (ix2 0 q))) 0
      = max (inA V c (((cfg1.win 2).blk t).view.emb (ix2 p q))
        + inB V c (ix2 0 ((((cfg1.win 2).blk t).view.emb (ix2 p q)) 1))) 0
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 16 + 1 * q.val = win1_2.index t (1 : Fin 2) * 16 + 1 * q.val; omega
  have h1 : ((cfg1.win 1).blk t).view.emb (ix2 0 q) = ix2 0 ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 16 + 1 * q.val = win1_2.index t (1 : Fin 2) * 16 + 1 * q.val; omega
  rw [h0, h1]
  rfl

/-- An index of the array is in point t's block iff each coordinate is in the block's range on its axis. -/
theorem mem_blk (t : Fin cfg1.N) (i : S200000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v45).slice (win1_2.rect t)).set ↔ _
  rw [View.set_slice_whole, Rect.mem_set_unit]
  exact Iff.rfl

/-- Every row lies in the block of the point row / 10000. -/
theorem cover (i : S200000x16.Idx) : ∃ t : Fin cfg1.N, (cfg1.win 2).flush t = true ∧ i ∈ ((cfg1.win 2).blk t).view.set := by
  have hi0 : (i 0).val < 200000 := (i 0).isLt
  have hi1 : (i 1).val < 16 := (i 1).isLt
  have hN : cfg1.N = 20 := N_1
  have ht : (i 0).val / 10000 < cfg1.N := by rw [hN]; omega
  refine ⟨⟨(i 0).val / 10000, ht⟩, flush1_2 _, ?_⟩
  rw [mem_blk]
  obtain ⟨e0, e1, e2, e3, e4, e5⟩ := idx_facts ⟨(i 0).val / 10000, ht⟩
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 16 ≤ (i 1).val
      ∧ (i 1).val < win1_2.index ⟨(i 0).val / 10000, ht⟩ (1 : Fin 2) * 16 + 16
    rw [e5]; omega

/-- After the first bias region its output array is the entered array plus the bias row, positive part taken. -/
theorem arr_eq (c : Dev nD) :
    (dat1 (F := Ideal) V c).arrAt 2 cfg1.N
      = Cert.Gcn.addRowPos (A := 200000) (B := 16) (V c main_v43) (V c main_v44) :=
  (dat1 (F := Ideal) V c).arrAt_eq_of_cover 2 _ (fun t _ => flushed_eq V c t) cover

end Cert.KernelIdeal.Region1

end
-- ==== Proof.Region2.lean ====
/-
  The dense stage that opens the second layer, tile by tile: the 200000 x 16 array of first-layer activations is cut
  into twenty blocks of 10000 rows, and each block is multiplied by the whole 16 x 1 weight column (both operands
  narrowed to a shorter float format first, which changes nothing over the extended reals; the accumulator starts at
  zero). Entry (p, 0) of block t of the product is the sum over k of activation (10000 t + p, k) times weight (k, 0):
  block t of the result is block t of the ONE function "rows by columns", and the twenty blocks cover every row (row
  r lies in block r / 10000), so the array after the stage is the rows-by-columns product of the two arrays it was
  entered with.
-/
import proofs.«116396_j8280696947375_1_alg».proof.Proof.Gen.KernelIdeal.Frame
import proofs.«116396_j8280696947375_1_alg».proof.Proof.Spec
import proofs.«116396_j8280696947375_1_alg».proof.Proof.LibDotFormats
import Idealize.ShloMosaic.Lib.ValueLayout
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- The stores and loads of the body sit at offset zero of their buffers. -/
theorem hz : (![0, 0] : Fin 2 → Nat) = fun _ => 0 := funext fun a => by fin_cases a <;> rfl

/-- The body's arithmetic at one entry: the block's row p against the weight column, summed over the sixteen shared
    coordinates (the block is first viewed at its own shape, which is the identity). -/
theorem pay_apply (x0 : Vec Ideal S10000x16 .f32) (x1 : Vec Ideal S16x1 .f32) (p : Fin 10000) (q : Fin 1) :
    k2_pay1 (F := Ideal) x0 x1 (ix2 p q) = ∑ k : Fin 16, x0 (ix2 p k) * x1 (ix2 k q) := by
  unfold k2_pay1
  show matmul (F := Ideal) dot_S10000x16_S16x1_S10000x1_1_0_0_1_n_n none
      (truncf (F := Ideal) .bf16 (shapeCast S10000x16 x0 shapeCasts_S10000x16_S10000x16) bitsLt_bf16_f32)
      (truncf (F := Ideal) .bf16 x1 bitsLt_bf16_f32)
      (constant (F := Ideal) S10000x1 .f32 0x00000000#32) (ix2 p q) = _
  rw [shapeCast_self]
  exact Cert.LibDotFormats.matmul_cols_zero_apply (A := 10000) (K := 16) (B := 1)
    dot_S10000x16_S16x1_S10000x1_1_0_0_1_n_n rfl rfl rfl rfl rfl rfl none
    (truncf (F := Ideal) .bf16 x0 bitsLt_bf16_f32) (truncf (F := Ideal) .bf16 x1 bitsLt_bf16_f32) p q

/-- The printed index maps over the grid: the row blocks move with the point, the weight column stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- The two arrays the region is entered with, at their literal types. -/
abbrev inA (c : Dev nD) : Vec Ideal S200000x16 .f32 := V c main_v45
abbrev inB (c : Dev nD) : Vec Ideal S16x1 .f32 := V c main_arg4

/-- What grid point t writes back is block t of the whole-array function. -/
theorem flushed_eq (c : Dev nD) (t : Fin cfg2.N) :
    (dat2 (F := Ideal) V c).flushed 2 t
      = ((cfg2.win 2).blk t).view.read (Elt Ideal) (Cert.Gcn.rowsDot (A := 200000) (K := 16) (B := 1) (V c main_v45) (V c main_arg4)) := by
  show (cfg2.win 2).cut (grid2.coords t) ((dat2 V c).after 2 t) = _
  rw [after2_2]
  unfold out2_2
  rw [View.canon_unit_zero hz]
  simp only [View.ld_unit_zero (S := S10000x16) hz, View.ld_unit_zero (S := S16x1) hz]
  funext j
  obtain ⟨p, q, rfl⟩ : ∃ (p : Fin 10000) (q : Fin 1), j = ix2 p q := ⟨j 0, j 1, eq_ix2 j⟩
  show k2_pay1 (iblk2 V c 0 t) (iblk2 V c 1 t) (ix2 p q)
      = Cert.Gcn.rowsDot (A := 200000) (K := 16) (B := 1) (V c main_v45) (V c main_arg4) (((cfg2.win 2).blk t).view.emb (ix2 p q))
  refine (pay_apply _ _ p q).trans ?_
  obtain ⟨e0, e1, e2, e3, e4, e5⟩ := idx_facts t
  have hp : p.val < 10000 := p.isLt
  have hq : q.val < 1 := q.isLt
  show (∑ k : Fin 16, inA V c (((cfg2.win 0).blk t).view.emb (ix2 p k)) * inB V c (((cfg2.win 1).blk t).view.emb (ix2 k q)))
      = ∑ k : Fin 16, inA V c (ix2 ((((cfg2.win 2).blk t).view.emb (ix2 p q)) 0) k)
          * inB V c (ix2 k ((((cfg2.win 2).blk t).view.emb (ix2 p q)) 1))
  refine Finset.sum_congr rfl fun k _ => ?_
  have hk : k.val < 16 := k.isLt
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 16 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 16 + 1 * k.val = k.val; omega
    | ⟨1, _⟩ => show win2_1.index t (1 : Fin 2) * 1 + 1 * q.val = win2_2.index t (1 : Fin 2) * 1 + 1 * q.val; omega
  rw [h0, h1]
  rfl

/-- An index of the array is in point t's block iff each coordinate is in the block's range on its axis. -/
theorem mem_blk (t : Fin cfg2.N) (i : S200000x1.Idx) :
    i ∈ ((cfg2.win 2).blk t).view.set ↔ ∀ a : Fin 2, win2_2.index t a * S10000x1.size a ≤ (i a).val ∧ (i a).val < win2_2.index t a * S10000x1.size a + S10000x1.size a := by
  show i ∈ ((View.whole main_v46).slice (win2_2.rect t)).set ↔ _
  rw [View.set_slice_whole, Rect.mem_set_unit]
  exact Iff.rfl

/-- Every row lies in the block of the point row / 10000. -/
theorem cover (i : S200000x1.Idx) : ∃ t : Fin cfg2.N, (cfg2.win 2).flush t = true ∧ i ∈ ((cfg2.win 2).blk t).view.set := by
  have hi0 : (i 0).val < 200000 := (i 0).isLt
  have hi1 : (i 1).val < 1 := (i 1).isLt
  have hN : cfg2.N = 20 := N_2
  have ht : (i 0).val / 10000 < cfg2.N := by rw [hN]; omega
  refine ⟨⟨(i 0).val / 10000, ht⟩, flush2_2 _, ?_⟩
  rw [mem_blk]
  obtain ⟨e0, e1, e2, e3, e4, e5⟩ := idx_facts ⟨(i 0).val / 10000, ht⟩
  intro a
  match a with
  | ⟨0, _⟩ =>
    show win2_2.index ⟨(i 0).val / 10000, ht⟩ (0 : Fin 2) * 10000 ≤ (i 0).val
      ∧ (i 0).val < win2_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, ht⟩ (1 : Fin 2) * 1 ≤ (i 1).val
      ∧ (i 1).val < win2_2.index ⟨(i 0).val / 10000, ht⟩ (1 : Fin 2) * 1 + 1
    rw [e5]; omega

/-- After the second product region its output array is rows by columns of the two arrays the region was entered with. -/
theorem arr_eq (c : Dev nD) :
    (dat2 (F := Ideal) V c).arrAt 2 cfg2.N
      = Cert.Gcn.rowsDot (A := 200000) (K := 16) (B := 1) (V c main_v45) (V c main_arg4) :=
  (dat2 (F := Ideal) V c).arrAt_eq_of_cover 2 _ (fun t _ => flushed_eq V c t) cover

end Cert.KernelIdeal.Region2

end
-- ==== Proof.Region3.lean ====
/-
  The last stage of the second layer, tile by tile: the aggregated column of 200000 rows is cut into twenty blocks of
  10000 rows; at each block the one-entry bias row is added to every row of the block. Entry (p, 0) of block t is
  row 10000 t + p of the array, so block t of the result is block t of the ONE function "array plus bias row",
  and the twenty blocks cover every row (row r lies in block r / 10000): the array after the stage is that function
  of the two arrays the stage was entered with.
-/
import proofs.«116396_j8280696947375_1_alg».proof.Proof.Gen.KernelIdeal.Frame
import proofs.«116396_j8280696947375_1_alg».proof.Proof.Spec
import Idealize.ShloMosaic.Lib.ValueLayout
import Idealize.ShloMosaic.Lib.Pipeline.Value

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat)

/-- The stores and loads of the body sit at offset zero of their buffers. -/
theorem hz : (![0, 0] : Fin 2 → Nat) = fun _ => 0 := funext fun a => by fin_cases a <;> rfl

/-- The body's arithmetic at one entry: the loaded block's entry plus the bias row's entry of that column. -/
theorem pay_apply (x0 : Vec Ideal S10000x1 .f32) (x1 : Vec Ideal S1x1 .f32) (p : Fin 10000) (q : Fin 1) :
    k3_pay1 (F := Ideal) x0 x1 (ix2 p q) = x0 (ix2 p q) + x1 (ix2 0 q) := by
  unfold k3_pay1
  show (shapeCast S10000x1 x0 shapeCasts_S10000x1_S10000x1 (ix2 p q) : EReal)
      + broadcastTo S10000x1 (shapeCast S1x1 x1 shapeCasts_S1x1_S1x1) broadcasts_S1x1_S10000x1 (ix2 p q) = _
  rw [shapeCast_self, shapeCast_self, broadcastTo_1b_ab_apply]

/-- The printed index maps over the grid: the row blocks move with the point, the bias row stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- The two arrays the region is entered with, at their literal types. -/
abbrev inA (c : Dev nD) : Vec Ideal S200000x1 .f32 := V c main_v58
abbrev inB (c : Dev nD) : Vec Ideal S1x1 .f32 := V c main_v59

/-- What grid point t writes back is block t of the whole-array function. -/
theorem flushed_eq (c : Dev nD) (t : Fin cfg3.N) :
    (dat3 (F := Ideal) V c).flushed 2 t
      = ((cfg3.win 2).blk t).view.read (Elt Ideal) (Cert.Gcn.addRow (A := 200000) (B := 1) (V c main_v58) (V c main_v59)) := by
  show (cfg3.win 2).cut (grid3.coords t) ((dat3 V c).after 2 t) = _
  rw [after3_2]
  unfold out3_2
  rw [View.canon_unit_zero hz]
  simp only [View.ld_unit_zero (S := S10000x1) hz, View.ld_unit_zero (S := S1x1) hz]
  funext j
  obtain ⟨p, q, rfl⟩ : ∃ (p : Fin 10000) (q : Fin 1), j = ix2 p q := ⟨j 0, j 1, eq_ix2 j⟩
  show k3_pay1 (iblk3 V c 0 t) (iblk3 V c 1 t) (ix2 p q)
      = Cert.Gcn.addRow (A := 200000) (B := 1) (V c main_v58) (V c main_v59) (((cfg3.win 2).blk t).view.emb (ix2 p q))
  refine (pay_apply _ _ p q).trans ?_
  obtain ⟨e0, e1, e2, e3, e4, e5⟩ := idx_facts t
  have hp : p.val < 10000 := p.isLt
  have hq : q.val < 1 := q.isLt
  show inA V c (((cfg3.win 0).blk t).view.emb (ix2 p q)) + inB V c (((cfg3.win 1).blk t).view.emb (ix2 0 q))
      = inA V c (((cfg3.win 2).blk t).view.emb (ix2 p q))
        + inB V c (ix2 0 ((((cfg3.win 2).blk t).view.emb (ix2 p q)) 1))
  have h0 : ((cfg3.win 0).blk t).view.emb (ix2 p q) = ((cfg3.win 2).blk t).view.emb (ix2 p q) := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 1 + 1 * q.val = win3_2.index t (1 : Fin 2) * 1 + 1 * q.val; omega
  have h1 : ((cfg3.win 1).blk t).view.emb (ix2 0 q) = ix2 0 ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 1 + 1 * q.val = win3_2.index t (1 : Fin 2) * 1 + 1 * q.val; omega
  rw [h0, h1]
  rfl

/-- An index of the array is in point t's block iff each coordinate is in the block's range on its axis. -/
theorem mem_blk (t : Fin cfg3.N) (i : S200000x1.Idx) :
    i ∈ ((cfg3.win 2).blk t).view.set ↔ ∀ a : Fin 2, win3_2.index t a * S10000x1.size a ≤ (i a).val ∧ (i a).val < win3_2.index t a * S10000x1.size a + S10000x1.size a := by
  show i ∈ ((View.whole main_v60).slice (win3_2.rect t)).set ↔ _
  rw [View.set_slice_whole, Rect.mem_set_unit]
  exact Iff.rfl

/-- Every row lies in the block of the point row / 10000. -/
theorem cover (i : S200000x1.Idx) : ∃ t : Fin cfg3.N, (cfg3.win 2).flush t = true ∧ i ∈ ((cfg3.win 2).blk t).view.set := by
  have hi0 : (i 0).val < 200000 := (i 0).isLt
  have hi1 : (i 1).val < 1 := (i 1).isLt
  have hN : cfg3.N = 20 := N_3
  have ht : (i 0).val / 10000 < cfg3.N := by rw [hN]; omega
  refine ⟨⟨(i 0).val / 10000, ht⟩, flush3_2 _, ?_⟩
  rw [mem_blk]
  obtain ⟨e0, e1, e2, e3, e4, e5⟩ := idx_facts ⟨(i 0).val / 10000, ht⟩
  intro a
  match a with
  | ⟨0, _⟩ =>
    show win3_2.index ⟨(i 0).val / 10000, ht⟩ (0 : Fin 2) * 10000 ≤ (i 0).val
      ∧ (i 0).val < win3_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, ht⟩ (1 : Fin 2) * 1 ≤ (i 1).val
      ∧ (i 1).val < win3_2.index ⟨(i 0).val / 10000, ht⟩ (1 : Fin 2) * 1 + 1
    rw [e5]; omega

/-- After the second bias region its output array is the entered array plus the bias row. -/
theorem arr_eq (c : Dev nD) :
    (dat3 (F := Ideal) V c).arrAt 2 cfg3.N
      = Cert.Gcn.addRow (A := 200000) (B := 1) (V c main_v58) (V c main_v59) :=
  (dat3 (F := Ideal) V c).arrAt_eq_of_cover 2 _ (fun t _ => flushed_eq V c t) cover

end Cert.KernelIdeal.Region3

end
-- ==== Proof.KernelValue.lean ====
/-
  The whole program's result as ONE function of its six arguments, over the extended reals.

  Walking the run backwards from the result buffer: it is what the second bias stage leaves, the aggregated column plus
  the bias; the column aggregates the second product along the edge list; that product takes the first layer's
  activations, which the first bias stage leaves as the positive part of the first aggregation plus its bias row; and
  the first aggregation takes the first product of the features and the first weight matrix. The two edge lists and
  the entry weights are computed before the first stage and no later stage or operation writes them, so both
  aggregations read the same lists and weights, functions of the edge argument alone.
-/
import proofs.«116396_j8280696947375_1_alg».proof.Proof.KernelHost
import proofs.«116396_j8280696947375_1_alg».proof.Proof.Region0
import proofs.«116396_j8280696947375_1_alg».proof.Proof.Region1
import proofs.«116396_j8280696947375_1_alg».proof.Proof.Region2
import proofs.«116396_j8280696947375_1_alg».proof.Proof.Region3

set_option maxRecDepth 16384

noncomputable section

namespace Cert.KernelIdeal.ValK

open Cert.KernelIdeal Cert.KernelIdeal.Gen Cert.KernelIdeal.HostK
open Idealize.ShloMosaic Idealize.ShloMosaic.TcCoe Idealize.SL.Sem Idealize.ShloMosaic.StableHlo

/-- The first layer's activations: features times weights, aggregated, plus the bias row, positive part. -/
def layer1 (x : Vec Ideal S200000x3 .f32) (e : IVec S2x6400000 32) (w1 : Vec Ideal S3x16 .f32) (b1 : Vec Ideal S16 .f32) :
    Vec Ideal S200000x16 .f32 :=
  Cert.Gcn.addRowPos (A := 200000) (B := 16)
    (agg16 (F := Ideal) (Cert.Gcn.rowsDot (A := 200000) (K := 3) (B := 16) x w1) (src e) (dst e) (norm (F := Ideal) (src e) (dst e)))
    (shapeCast S1x16 b1 shapeCasts_S16_S1x16)

/-- The result: the activations times the second weights, aggregated, plus the second bias. -/
def out (x : Vec Ideal S200000x3 .f32) (e : IVec S2x6400000 32) (w1 : Vec Ideal S3x16 .f32) (b1 : Vec Ideal S16 .f32)
    (w2 : Vec Ideal S16x1 .f32) (b2 : Vec Ideal S1 .f32) : Vec Ideal S200000x1 .f32 :=
  Cert.Gcn.addRow (A := 200000) (B := 1)
    (agg1 (F := Ideal) (Cert.Gcn.rowsDot (A := 200000) (K := 16) (B := 1) (layer1 x e w1 b1) w2) (src e) (dst e) (norm (F := Ideal) (src e) (dst e)))
    (shapeCast S1x1 b2 shapeCasts_S1_S1x1)

variable (m : (ℓ : Loc nD τ sig) → Buf (Elt Ideal) ℓ) (ρ : Dev nD → PrngReg)

/-! ## What is carried past the first product -/

theorem src4 (c : Dev nD) : V4 m ρ c main_v5 = src (m ((c : Thread nD τ).loc main_arg1)) :=
  (W4_of_ne m ρ c main_v5 (by decide)).trans (entry0_src m ρ c)
theorem dst4 (c : Dev nD) : V4 m ρ c main_v6 = dst (m ((c : Thread nD τ).loc main_arg1)) :=
  (W4_of_ne m ρ c main_v6 (by decide)).trans (entry0_dst m ρ c)
theorem norm4 (c : Dev nD) : V4 m ρ c main_v29
    = norm (F := Ideal) (src (m ((c : Thread nD τ).loc main_arg1))) (dst (m ((c : Thread nD τ).loc main_arg1))) :=
  (W4_of_ne m ρ c main_v29 (by decide)).trans (entry0_norm m ρ c)
theorem arg3_4 (c : Dev nD) : V4 m ρ c main_arg3 = m ((c : Thread nD τ).loc main_arg3) :=
  (W4_of_ne m ρ c main_arg3 (by decide)).trans (entry0_arg3 m ρ c)
theorem arg4_4 (c : Dev nD) : V4 m ρ c main_arg4 = m ((c : Thread nD τ).loc main_arg4) :=
  (W4_of_ne m ρ c main_arg4 (by decide)).trans (entry0_arg4 m ρ c)
theorem arg5_4 (c : Dev nD) : V4 m ρ c main_arg5 = m ((c : Thread nD τ).loc main_arg5) :=
  (W4_of_ne m ρ c main_arg5 (by decide)).trans (entry0_arg5 m ρ c)

/-! ## and past the first bias stage and the second product -/

theorem src7 (c : Dev nD) : V7 m ρ c main_v5 = src (m ((c : Thread nD τ).loc main_arg1)) :=
  (W7_of_ne m ρ c main_v5 (by decide)).trans ((W6_of_ne m ρ c main_v5 (by decide)).trans ((entry1_src m ρ c).trans (src4 m ρ c)))
theorem dst7 (c : Dev nD) : V7 m ρ c main_v6 = dst (m ((c : Thread nD τ).loc main_arg1)) :=
  (W7_of_ne m ρ c main_v6 (by decide)).trans ((W6_of_ne m ρ c main_v6 (by decide)).trans ((entry1_dst m ρ c).trans (dst4 m ρ c)))
theorem norm7 (c : Dev nD) : V7 m ρ c main_v29
    = norm (F := Ideal) (src (m ((c : Thread nD τ).loc main_arg1))) (dst (m ((c : Thread nD τ).loc main_arg1))) :=
  (W7_of_ne m ρ c main_v29 (by decide)).trans ((W6_of_ne m ρ c main_v29 (by decide)).trans ((entry1_norm m ρ c).trans (norm4 m ρ c)))
theorem arg5_7 (c : Dev nD) : V7 m ρ c main_arg5 = m ((c : Thread nD τ).loc main_arg5) :=
  (W7_of_ne m ρ c main_arg5 (by decide)).trans ((W6_of_ne m ρ c main_arg5 (by decide)).trans ((entry1_arg5 m ρ c).trans (arg5_4 m ρ c)))
theorem arg4_6 (c : Dev nD) : V6 m ρ c main_arg4 = m ((c : Thread nD τ).loc main_arg4) :=
  (W6_of_ne m ρ c main_arg4 (by decide)).trans ((entry1_arg4 m ρ c).trans (arg4_4 m ρ c))

/-! ## The four stages' outputs, back to the arguments -/

/-- After the first product. -/
theorem prod1 (c : Dev nD) : V4 m ρ c main_v30
    = Cert.Gcn.rowsDot (A := 200000) (K := 3) (B := 16) (m ((c : Thread nD τ).loc main_arg0)) (m ((c : Thread nD τ).loc main_arg2)) := by
  refine ((hF0 m ρ c 2).symm.trans (Region0.arr_eq (V3 m ρ) c)).trans ?_
  rw [entry0_arg0, entry0_arg2]

/-- After the first bias stage: the first layer's activations. -/
theorem act1 (c : Dev nD) : V6 m ρ c main_v45
    = layer1 (m ((c : Thread nD τ).loc main_arg0)) (m ((c : Thread nD τ).loc main_arg1)) (m ((c : Thread nD τ).loc main_arg2)) (m ((c : Thread nD τ).loc main_arg3)) := by
  refine ((hF1 m ρ c 2).symm.trans (Region1.arr_eq (V5 m ρ) c)).trans ?_
  rw [entry1_agg, entry1_bias, prod1, src4, dst4, norm4, arg3_4]
  rfl

/-- After the second product. -/
theorem prod2 (c : Dev nD) : V7 m ρ c main_v46
    = Cert.Gcn.rowsDot (A := 200000) (K := 16) (B := 1)
        (layer1 (m ((c : Thread nD τ).loc main_arg0)) (m ((c : Thread nD τ).loc main_arg1)) (m ((c : Thread nD τ).loc main_arg2)) (m ((c : Thread nD τ).loc main_arg3)))
        (m ((c : Thread nD τ).loc main_arg4)) := by
  refine ((hF2 m ρ c 2).symm.trans (Region2.arr_eq (V6 m ρ) c)).trans ?_
  rw [act1, arg4_6]

/-- The result buffer at the end of the run is the program's function of its six arguments. -/
theorem result_eq (c : Dev nD) : W9 m ρ c (Proc.devRef .tc main_v60)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine ((hF3 m ρ c 2).symm.trans (Region3.arr_eq (V8 m ρ) c)).trans ?_
  rw [entry3_agg, entry3_bias, prod2, src7, dst7, norm7, arg5_7]
  rfl

end Cert.KernelIdeal.ValK

end
-- ==== Proof.RefHost.lean ====
/-
  The reference's result as the same nesting of functions.

  The reference computes each layer on whole arrays: the features times the weights, the aggregation along the edge
  list (the given edges and one self-loop per node, each entry weighted by its two ends' inverse root degrees), the
  bias row spread over all rows and added, and between the layers the positive part. It builds the edge lists and the
  weights anew in the second layer, from the same edge argument by the same operations, so the second aggregation
  reads the same functions of that argument as the first. Naming those shared operations as functions of whole arrays,
  the reference's result is this nesting of them around its two whole-array products, by unfolding alone.
-/
import proofs.«116396_j8280696947375_1_alg».proof.Proof.RefRunPatched

set_option maxRecDepth 16384

noncomputable section

namespace Cert.ReferenceIdeal.HostR

open Cert.ReferenceIdeal Cert.ReferenceIdeal.Gen
open Idealize.ShloMosaic Idealize.ShloMosaic.TcCoe Idealize.SL.Sem Idealize.ShloMosaic.StableHlo

variable {F : FTy → Type} [FloatOps F]

/-! ## The host operations the two layers share, as functions of whole arrays -/

/-- The edges' source nodes followed by every node once (the self-loops). -/
def src (e : IVec S2x6400000 32) : IVec S6600000 32 :=
  concatenate S6600000 0 [⟨S6400000, shapeCast S6400000 (extractStridedSlice S1x6400000 ![0, 0] e slices_S2x6400000_S1x6400000_0_0) shapeCasts_S1x6400000_S6400000⟩, ⟨S200000, iotaInDim S200000 32 0⟩] concatenates_S6400000_S200000_S6600000_d0

/-- The edges' target nodes followed by every node once. -/
def dst (e : IVec S2x6400000 32) : IVec S6600000 32 :=
  concatenate S6600000 0 [⟨S6400000, shapeCast S6400000 (extractStridedSlice S1x6400000 ![1, 0] e slices_S2x6400000_S1x6400000_1_0) shapeCasts_S1x6400000_S6400000⟩, ⟨S200000, iotaInDim S200000 32 0⟩] concatenates_S6400000_S200000_S6600000_d0

/-- A node list as a column of index words. -/
def col (i : IVec S6600000 32) : IVec S6600000x1 32 := broadcastInDim S6600000x1 ![0] bcast_S6600000_S6600000x1_0 i

/-- The same with a negative word counted from the end first. -/
def wrapCol (i : IVec S6600000 32) : IVec S6600000x1 32 :=
  broadcastInDim S6600000x1 ![0] bcast_S6600000_S6600000x1_0
    (select (cmpi .slt i (broadcastInDim S6600000 ![] bcast_S_S6600000 (constantI S_ 32 0#32)))
      (addi i (broadcastInDim S6600000 ![] bcast_S_S6600000 (constantI S_ 32 200000#32))) i)

/-- How many list entries name each node. -/
def deg (d : IVec S6600000 32) : FVec F S200000 .f32 :=
  Host.scatterAdd scatter_S200000_S6600000x1_S6600000_n_0_0_1 (broadcastInDim S200000 ![] bcast_S_S200000 (constant S_ .f32 0x00000000#32)) (col d)
    (broadcastInDim S6600000 ![] bcast_S_S6600000 (constant S_ .f32 0x3F800000#32))

/-- The inverse square root of a positive degree, zero otherwise. -/
def dinv (g : FVec F S200000 .f32) : FVec F S200000 .f32 :=
  select (cmpf .ogt g (broadcastInDim S200000 ![] bcast_S_S200000 (constant S_ .f32 0x00000000#32))) (Host.rsqrt g)
    (broadcastInDim S200000 ![] bcast_S_S200000 (id (constant S_ .f32 0x00000000#32)))

/-- The weight of each list entry: the two ends' inverse root degrees multiplied. -/
def norm (s d : IVec S6600000 32) : FVec F S6600000 .f32 :=
  mulf (Host.gather gather_S200000_S6600000x1_S6600000_n_0_n_n_0_1_1 (dinv (deg (F := F) d)) (wrapCol s))
    (Host.gather gather_S200000_S6600000x1_S6600000_n_0_n_n_0_1_1 (dinv (deg (F := F) d)) (wrapCol d))

/-- Sixteen features gathered at the sources, weighted, summed into the targets. -/
def agg16 (h : FVec F S200000x16 .f32) (s d : IVec S6600000 32) (n : FVec F S6600000 .f32) : FVec F S200000x16 .f32 :=
  Host.scatterAdd scatter_S200000x16_S6600000x1_S6600000x16_1_0_0_1 (broadcastInDim S200000x16 ![] bcast_S_S200000x16 (constant S_ .f32 0x00000000#32)) (col d)
    (mulf (Host.gather gather_S200000x16_S6600000x1_S6600000x16_1_0_n_n_0_1_116 h (wrapCol s))
      (broadcastInDim S6600000x16 ![0, 1] bcast_S6600000x1_S6600000x16_0_1 (broadcastInDim S6600000x1 ![0] bcast_S6600000_S6600000x1_0 n)))

/-- One feature gathered at the sources, weighted, summed into the targets. -/
def agg1 (h : FVec F S200000x1 .f32) (s d : IVec S6600000 32) (n : FVec F S6600000 .f32) : FVec F S200000x1 .f32 :=
  Host.scatterAdd scatter_S200000x1_S6600000x1_S6600000x1_1_0_0_1 (broadcastInDim S200000x1 ![] bcast_S_S200000x1 (constant S_ .f32 0x00000000#32)) (col d)
    (mulf (Host.gather gather_S200000x1_S6600000x1_S6600000x1_1_0_n_n_0_1_11 h (wrapCol s))
      (broadcastInDim S6600000x1 ![0] bcast_S6600000_S6600000x1_0 n))

/-- The reference's result of its six arguments: two whole-array products, two aggregations, the bias rows spread and
    added, the positive part between the layers. -/
def out (x : FVec F S200000x3 .f32) (e : IVec S2x6400000 32) (w1 : FVec F S3x16 .f32) (b1 : FVec F S16 .f32)
    (w2 : FVec F S16x1 .f32) (b2 : FVec F S1 .f32) : FVec F S200000x1 .f32 :=
  addf
    (agg1 (F := F)
      (Host.dotGeneral dot_S200000x16_S16x1_S200000x1_1_0_0_1_n_n none
        (maximumf
          (addf
            (agg16 (F := F) (Host.dotGeneral dot_S200000x3_S3x16_S200000x16_1_0_0_1_n_n none x w1) (src e) (dst e) (norm (F := F) (src e) (dst e)))
            (broadcastInDim S200000x16 ![0, 1] bcast_S1x16_S200000x16_0_1 (broadcastInDim S1x16 ![1] bcast_S16_S1x16_1 b1)))
          (broadcastInDim S200000x16 ![] bcast_S_S200000x16 (constant S_ .f32 0x00000000#32)))
        w2)
      (src e) (dst e) (norm (F := F) (src e) (dst e)))
    (broadcastInDim S200000x1 ![0, 1] bcast_S1x1_S200000x1_0_1 (broadcastInDim S1x1 ![1] bcast_S1_S1x1_1 b2))

/-- The run's long result term is that nesting. -/
theorem res_eq (m : (ℓ : Loc nD τ sig) → Buf (Elt F) ℓ) (c : Dev nD) :
    Cert.ReferenceIdeal.RunP.res_main_v89 (F := F) m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.RunP.res_main_v89 out agg1 agg16 norm dinv deg col wrapCol src dst
  rfl

end Cert.ReferenceIdeal.HostR

end
-- ==== Proof.LibPlainDot.lean ====
/-
  A matrix product contracted over ONE axis, read at an index.

  For an `A × K` left operand and a `K × B` right operand whose dimension numbers contract the left operand's
  second axis against the right operand's first (no batch axes), the contraction index has one coordinate
  `k : Fin K`, the left operand is read at `(p, k)` and the right one at `(k, q)`. So the sum over the contraction
  index that the product's value is stated with is the textbook `∑ k, f (p, k) · g (k, q)`, whatever the sizes.
  `eq_plain` identifies any record with these dimension numbers with the library's `DotDims.plain`, for which the
  two operand indices compute.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

/-- The contraction shape has one axis … -/
theorem plain_rank : (DotDims.plain A K B).contr.rank = 1 := rfl
/-- … of extent `K`. -/
theorem plain_size : (DotDims.plain A K B).contr.size ⟨0, by rw [plain_rank]; exact Nat.one_pos⟩ = K := rfl

/-- At result index `(p, q)` and contraction coordinate `k` the left operand is read at `(p, k)`. -/
theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

/-- At result index `(p, q)` and contraction coordinate `k` the right operand is read at `(k, q)`. -/
theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A block product into the zero accumulator, at `(p, q)`: `∑ k, lhs (p, k) · rhs (k, q)`. -/
theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-- The host's product at `(p, q)`, whatever its schedule key: the same sum. -/
theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.LibBroadcastInDim.lean ====
/-
  `broadcast_in_dim` between vectors, columns, rows and matrices, read at an index (any sizes, any element type).

  * an `[a]` vector placed along axis 0 of `[a, 1]`: entry `(i, u)` is the vector's entry `i`;
  * an `[a, 1]` column spread to `[a, b]`: entry `(i, j)` is the column's entry `(i, 0)`;
  * a `[b]` vector placed along axis 1 of `[1, b]`: entry `(u, j)` is the vector's entry `j`;
  * a `[1, b]` row spread to `[a, b]`: entry `(i, j)` is the row's entry `(0, j)`;
  * a scalar spread to any shape: every entry is the scalar.
  In each case the operand index keeps the coordinates on the axes the operand has and is zero on a unit axis
  (an axis of extent one has only the coordinate zero, so the two readings of such an axis agree).
-/
import Idealize.ShloMosaic.Lib.ValueIdx
import Idealize.ShloMosaic.Lib.Pipeline.Value

namespace Cert.LibBroadcastInDim

open Idealize.ShloMosaic Idealize.ShloMosaic.ValueIdx

variable {α : Type}

/-- An `[a]` vector placed along axis 0 of `[a, 1]` reads, at `(i, u)`, the vector at `i`. -/
theorem vec_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- An `[a, 1]` column spread to `[a, b]` reads, at `(i, j)`, the column at `(i, 0)`. -/
theorem col_mat_apply {a b : ℕ} (x : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A `[b]` vector placed along axis 1 of `[1, b]` reads, at `(u, j)`, the vector at `j`. -/
theorem vec_row_apply {b : ℕ} (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ (![1] : Fin 1 → Fin 2) h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A `[1, b]` row spread to `[a, b]` reads, at `(i, j)`, the row at `(0, j)`. -/
theorem row_mat_apply {a b : ℕ} (x : (⟨2, ![1, b]⟩ : Shape).Idx → α)
    (h : (⟨2, ![1, b]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 (0 : Fin 1) j) := by
  refine broadcastInDim_apply _ h x (ix2 i j) (ix2 (0 : Fin 1) j) fun ax => ?_
  match ax with
  | ⟨0, _⟩ => rfl
  | ⟨1, _⟩ =>
    show j.val = if b = 1 then 0 else j.val
    split
    · have := j.isLt; omega
    · rfl

/-- A scalar spread to any shape reads the scalar at every index. -/
theorem scalar_apply {t : Shape} (x : (⟨0, ![]⟩ : Shape).Idx → α)
    (h : (⟨0, ![]⟩ : Shape).BroadcastsInDim t (![] : Fin 0 → Fin t.rank)) (j : t.Idx) (k : (⟨0, ![]⟩ : Shape).Idx) :
    broadcastInDim t (![] : Fin 0 → Fin t.rank) h x j = x k :=
  broadcastInDim_apply _ h x j k fun ax => ax.elim0

end Cert.LibBroadcastInDim
-- ==== Proof.SpecLaws.lean ====
/-
  The three places where the two programs spell one function differently, over any sizes.

  * A whole-array product with the left operand's second axis contracted against the right operand's first is rows by
    columns: entry (p, q) is the sum over k of x (p, k) times w (k, q).
  * A bias vector of length B placed along the second axis of a one-row array and that row spread over A rows reads
    the vector's entry q at every (p, q); the same vector viewed as a 1 x B array reads entry q at (0, q). So adding
    the spread array entry by entry is adding the one-row array to every row.
  * A zero spread over an array is zero at every entry, so the entrywise maximum with it is the positive part.
-/
import proofs.«116396_j8280696947375_1_alg».proof.Proof.Spec
import proofs.«116396_j8280696947375_1_alg».proof.Proof.LibPlainDot
import proofs.«116396_j8280696947375_1_alg».proof.Proof.LibBroadcastInDim
import Idealize.ShloMosaic.PureOps.Ideal.Laws
import Idealize.ShloMosaic.Lib.ValueLayout

noncomputable section

namespace Cert.Gcn

open Idealize.ShloMosaic Idealize.ShloMosaic.ValueIdx
open scoped BigOperators

/-- The host's product with dimension numbers [1] x [0] and no batch axes is rows by columns. -/
theorem dotGeneral_eq_rowsDot {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![A, K]⟩ .f32) (w : FVec Ideal ⟨2, ![K, B]⟩ .f32) :
    Host.dotGeneral d none x w = rowsDot x w := by
  funext i
  obtain ⟨p, q, rfl⟩ : ∃ (p : Fin A) (q : Fin B), i = ix2 p q := ⟨i 0, i 1, eq_ix2 i⟩
  exact Cert.LibPlainDot.dotGeneral_apply d hlc hrc hln hrn hlb hrb none .single x w p q

/-- A bias vector spread over all rows and added is the vector, viewed as one row, added to every row. -/
theorem addf_spread_eq_addRow {A B : Nat} (a : FVec Ideal ⟨2, ![A, B]⟩ .f32) (b : FVec Ideal ⟨1, ![B]⟩ .f32)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (hs : (⟨1, ![B]⟩ : Shape).ShapeCasts ⟨2, ![1, B]⟩) :
    addf a (broadcastInDim ⟨2, ![A, B]⟩ (![0, 1] : Fin 2 → Fin 2) h2 (broadcastInDim ⟨2, ![1, B]⟩ (![1] : Fin 1 → Fin 2) h1 b))
      = addRow a (shapeCast ⟨2, ![1, B]⟩ b hs) := by
  funext i
  obtain ⟨p, q, rfl⟩ : ∃ (p : Fin A) (q : Fin B), i = ix2 p q := ⟨i 0, i 1, eq_ix2 i⟩
  rw [addRow_apply, addf_apply, Cert.LibBroadcastInDim.row_mat_apply, Cert.LibBroadcastInDim.vec_row_apply, shapeCast_a_1a_apply]

/-- The same with the positive part taken against a spread zero. -/
theorem max_addf_spread_eq_addRowPos {A B : Nat} (a : FVec Ideal ⟨2, ![A, B]⟩ .f32) (b : FVec Ideal ⟨1, ![B]⟩ .f32)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2))
    (hs : (⟨1, ![B]⟩ : Shape).ShapeCasts ⟨2, ![1, B]⟩) :
    maximumf
        (addf a (broadcastInDim ⟨2, ![A, B]⟩ (![0, 1] : Fin 2 → Fin 2) h2 (broadcastInDim ⟨2, ![1, B]⟩ (![1] : Fin 1 → Fin 2) h1 b)))
        (broadcastInDim ⟨2, ![A, B]⟩ (![] : Fin 0 → Fin 2) h0 (constant (F := Ideal) ⟨0, ![]⟩ .f32 0x00000000#32))
      = addRowPos a (shapeCast ⟨2, ![1, B]⟩ b hs) := by
  funext i
  obtain ⟨p, q, rfl⟩ : ∃ (p : Fin A) (q : Fin B), i = ix2 p q := ⟨i 0, i 1, eq_ix2 i⟩
  rw [addRowPos_apply, maximumf_apply, addf_apply, Cert.LibBroadcastInDim.row_mat_apply, Cert.LibBroadcastInDim.vec_row_apply,
    shapeCast_a_1a_apply, Cert.LibBroadcastInDim.scalar_apply _ h0 _ ix0, constant_apply, Ideal.ofBits_zero_f32]

end Cert.Gcn

end
-- ==== Proof.Bridge.lean ====
/-
  The two programs compute one function.

  Both results are the same nesting: second bias row added to the second aggregation of (the first layer's activations
  times the second weights), the activations being the positive part of the first bias row added to the first
  aggregation of (the features times the first weights). The aggregations, the edge lists and the entry weights are
  the same host operations in both programs, spelt over each program's own names for the same shapes and records: they
  are equal as they stand. What remains is the two dense stages: the reference's whole-array product is rows by
  columns, which is what the tiled products leave; and its bias vector, placed along a one-row array's second axis and
  spread over all rows, adds the same number to entry (p, q) as the vector viewed as one row and added to every row,
  with the positive part the maximum against a spread zero. No law used moves a factor across a sum or cancels, so the
  equality holds at every extended real and needs no finiteness of the inputs.
-/
import proofs.«116396_j8280696947375_1_alg».proof.Proof.KernelValue
import proofs.«116396_j8280696947375_1_alg».proof.Proof.RefHost
import proofs.«116396_j8280696947375_1_alg».proof.Proof.SpecLaws

set_option maxRecDepth 16384

noncomputable section

namespace Cert.Bridge

open Idealize.ShloMosaic

/-! ## The shared host operations are one function under either program's spelling -/

section Shared
variable {F : FTy → Type} [FloatOps F]

theorem src_eq (e : IVec Cert.KernelIdeal.S2x6400000 32) :
    Cert.KernelIdeal.HostK.src e = Cert.ReferenceIdeal.HostR.src e := rfl
theorem dst_eq (e : IVec Cert.KernelIdeal.S2x6400000 32) :
    Cert.KernelIdeal.HostK.dst e = Cert.ReferenceIdeal.HostR.dst e := rfl
theorem col_eq (i : IVec Cert.KernelIdeal.S6600000 32) :
    Cert.KernelIdeal.HostK.col i = Cert.ReferenceIdeal.HostR.col i := rfl
theorem wrapCol_eq (i : IVec Cert.KernelIdeal.S6600000 32) :
    Cert.KernelIdeal.HostK.wrapCol i = Cert.ReferenceIdeal.HostR.wrapCol i := rfl
theorem deg_eq (d : IVec Cert.KernelIdeal.S6600000 32) :
    Cert.KernelIdeal.HostK.deg (F := F) d = Cert.ReferenceIdeal.HostR.deg (F := F) d := rfl
theorem dinv_eq (g : FVec F Cert.KernelIdeal.S200000 .f32) :
    Cert.KernelIdeal.HostK.dinv (F := F) g = Cert.ReferenceIdeal.HostR.dinv (F := F) g := rfl
theorem norm_eq (s d : IVec Cert.KernelIdeal.S6600000 32) :
    Cert.KernelIdeal.HostK.norm (F := F) s d = Cert.ReferenceIdeal.HostR.norm (F := F) s d := by
  unfold Cert.KernelIdeal.HostK.norm Cert.ReferenceIdeal.HostR.norm
  rw [deg_eq, dinv_eq, wrapCol_eq, wrapCol_eq]
  rfl
theorem agg16_eq (h : FVec F Cert.KernelIdeal.S200000x16 .f32) (s d : IVec Cert.KernelIdeal.S6600000 32)
    (n : FVec F Cert.KernelIdeal.S6600000 .f32) :
    Cert.KernelIdeal.HostK.agg16 (F := F) h s d n = Cert.ReferenceIdeal.HostR.agg16 (F := F) h s d n := by
  unfold Cert.KernelIdeal.HostK.agg16 Cert.ReferenceIdeal.HostR.agg16
  rw [col_eq, wrapCol_eq]
  rfl
theorem agg1_eq (h : FVec F Cert.KernelIdeal.S200000x1 .f32) (s d : IVec Cert.KernelIdeal.S6600000 32)
    (n : FVec F Cert.KernelIdeal.S6600000 .f32) :
    Cert.KernelIdeal.HostK.agg1 (F := F) h s d n = Cert.ReferenceIdeal.HostR.agg1 (F := F) h s d n := by
  unfold Cert.KernelIdeal.HostK.agg1 Cert.ReferenceIdeal.HostR.agg1
  rw [col_eq, wrapCol_eq]
  rfl

end Shared

/-! ## The results -/

/-- The kernel program's function of the six arguments is the reference's. -/
theorem out_eq (x : FVec Ideal Cert.KernelIdeal.S200000x3 .f32) (e : IVec Cert.KernelIdeal.S2x6400000 32)
    (w1 : FVec Ideal Cert.KernelIdeal.S3x16 .f32) (b1 : FVec Ideal Cert.KernelIdeal.S16 .f32)
    (w2 : FVec Ideal Cert.KernelIdeal.S16x1 .f32) (b2 : FVec Ideal Cert.KernelIdeal.S1 .f32) :
    Cert.KernelIdeal.ValK.out x e w1 b1 w2 b2 = Cert.ReferenceIdeal.HostR.out (F := Ideal) x e w1 b1 w2 b2 := by
  unfold Cert.KernelIdeal.ValK.out Cert.KernelIdeal.ValK.layer1 Cert.ReferenceIdeal.HostR.out
  rw [Cert.Gcn.dotGeneral_eq_rowsDot (A := 200000) (K := 3) (B := 16)
        Cert.ReferenceIdeal.dot_S200000x3_S3x16_S200000x16_1_0_0_1_n_n rfl rfl rfl rfl rfl rfl x w1,
    Cert.Gcn.max_addf_spread_eq_addRowPos (A := 200000) (B := 16) _ b1 Cert.ReferenceIdeal.Facts₀.bcast_S16_S1x16_1
        Cert.ReferenceIdeal.Facts₀.bcast_S1x16_S200000x16_0_1 Cert.ReferenceIdeal.Facts₀.bcast_S_S200000x16
        Cert.KernelIdeal.Facts₀.shapeCasts_S16_S1x16,
    Cert.Gcn.dotGeneral_eq_rowsDot (A := 200000) (K := 16) (B := 1)
        Cert.ReferenceIdeal.dot_S200000x16_S16x1_S200000x1_1_0_0_1_n_n rfl rfl rfl rfl rfl rfl _ w2,
    Cert.Gcn.addf_spread_eq_addRow (A := 200000) (B := 1) _ b2 Cert.ReferenceIdeal.Facts₀.bcast_S1_S1x1_1
        Cert.ReferenceIdeal.Facts₀.bcast_S1x1_S200000x1_0_1 Cert.KernelIdeal.Facts₀.shapeCasts_S1_S1x1,
    src_eq, dst_eq, norm_eq, agg16_eq, agg1_eq]

end Cert.Bridge

end
-- ==== Proof.lean ====
/-
  A two-layer graph convolution over 200000 nodes, 6400000 edges and one self-loop per node, features 3 -> 16 -> 1:
  the program that runs its four dense stages (two products, two bias stages, the first with a positive part) tile by
  tile on blocks of 10000 rows computes, over the extended reals, the same function of its six arguments as the
  reference that runs them on whole arrays.

  Each tiled stage leaves ONE whole-array function of the arrays it was entered with (rows by columns; a bias row
  added to every row, with or without the positive part), because block t of its result is block t of that function and
  the twenty blocks cover every row. Between the stages both programs run the same host operations along the same
  edge list, which are carried as functions and never opened. The reference's product is rows by columns, and its
  spread bias adds the same number at every entry as the bias row added to every row: the two results are one nesting of
  the same functions. Nothing in this uses that the inputs are finite. The three frames are the generated ones (the
  reference's is its run with the result dropped); the idealization rewrote no operation, so it is preserved trivially.
-/
import proofs.«116396_j8280696947375_1_alg».proof.Defs
import proofs.«116396_j8280696947375_1_alg».proof.Proof.Gen.Kernel
import proofs.«116396_j8280696947375_1_alg».proof.Proof.Gen.Kernel.Skeleton
import proofs.«116396_j8280696947375_1_alg».proof.Proof.Gen.Kernel.Launch
import proofs.«116396_j8280696947375_1_alg».proof.Proof.Gen.Kernel.Points
import proofs.«116396_j8280696947375_1_alg».proof.Proof.Gen.Kernel.Frame
import proofs.«116396_j8280696947375_1_alg».proof.Proof.Gen.KernelIdeal
import proofs.«116396_j8280696947375_1_alg».proof.Proof.Gen.KernelIdeal.Skeleton
import proofs.«116396_j8280696947375_1_alg».proof.Proof.Gen.KernelIdeal.Launch
import proofs.«116396_j8280696947375_1_alg».proof.Proof.Gen.KernelIdeal.Points
import proofs.«116396_j8280696947375_1_alg».proof.Proof.Gen.KernelIdeal.Frame
import proofs.«116396_j8280696947375_1_alg».proof.Proof.Gen.ReferenceIdeal
import proofs.«116396_j8280696947375_1_alg».proof.Proof.Gen.Pre_finite_inputs
import proofs.«116396_j8280696947375_1_alg».proof.Proof.KernelRun
import proofs.«116396_j8280696947375_1_alg».proof.Proof.KernelValue
import proofs.«116396_j8280696947375_1_alg».proof.Proof.RefRunPatched
import proofs.«116396_j8280696947375_1_alg».proof.Proof.RefHost
import proofs.«116396_j8280696947375_1_alg».proof.Proof.Bridge
import Idealize.ShloMosaic.Adequacy
import Idealize.ShloMosaic.Init

noncomputable section

namespace Cert.Proof

open Idealize.ShloMosaic Idealize.SL.Sem

/-- The word-level program runs and leaves its arguments as launched: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The ideal pass rewrote no operation. -/
theorem preserves : Cert.preserves_Kernel_KernelIdeal := trivial

/-- From memories that agree on the six arguments both programs end with the same result array: the kernel program's
    at its function of the arguments, the reference's at its own nesting of them, and the two are one function. -/
theorem algebraic : Cert.algebraic_KernelIdeal_ReferenceIdeal := by
  intro m ρ m' ρ' _ hagree
  refine ⟨fun c => Cert.KernelIdeal.ValK.out (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.ValK.result_eq m ρ c), (h c).2⟩)
      (Cert.KernelIdeal.RunK.run_main (F := Ideal) m ρ)
  · refine (θ_run Cert.ReferenceIdeal.defs _ _).mono (fun r h c => ⟨(h c).1.trans ?_, (h c).2⟩)
      (Cert.ReferenceIdeal.RunP.run (F := Ideal) m' ρ')
    rw [Cert.ReferenceIdeal.HostR.res_eq, (hagree c).1, (hagree c).2.1, (hagree c).2.2.1, (hagree c).2.2.2.1,
      (hagree c).2.2.2.2.1, (hagree c).2.2.2.2.2]
    exact (Cert.Bridge.out_eq _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
